-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S600000x2 : Shape := ⟨2, ![600000, 2]⟩
abbrev S128x128 : Shape := ⟨2, ![128, 128]⟩
abbrev S128 : Shape := ⟨1, ![128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S256x64 : S_.BroadcastsInDim S256x64 (![] : Fin 0 → Fin S256x64.rank)
  reducesTo_S256x64_S_d0_1 : S256x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S600000x2 : S_.BroadcastsInDim S600000x2 (![] : Fin 0 → Fin S600000x2.rank)
  reducesTo_S600000x2_S_d0_1 : S600000x2.ReducesTo [0, 1] S_

variable [Facts]

def fn_part2 {F : FTy → Type} [FloatOps F] (main_arg1 : IVec S600000x2 32) (main_arg8 : FVec F S64x1 .f32) (main_arg9 : FVec F S1 .f32) (main_v33 : IVec S_ 1) : IVec S_ 1 :=
  let main_v34 : FVec F S64x1 .f32 := Host.absf main_arg8
  let main_cst_12 : FVec F S_ .f32 := constant S_ .f32 0x7F800000#32
  let main_v35 : FVec F S64x1 .f32 := broadcastInDim S64x1 ![] bcast_S_S64x1 main_cst_12
  let main_v36 : IVec S64x1 1 := cmpf .olt main_v34 main_v35
  let main_c_13 : IVec S_ 1 := constantI S_ 1 1#1
  let main_v37 : IVec S_ 1 := (fun x v => Host.reduce IntOp.andi x v reducesTo_S64x1_S_d0_1 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_c_16 : IVec S_ 32 := constantI S_ 32 0#32
  let main_v44 : IVec S600000x2 32 := broadcastInDim S600000x2 ![] bcast_S_S600000x2 main_c_16
  let main_v45 : IVec S600000x2 1 := cmpi .sge main_arg1 main_v44
  let main_c_17 : IVec S_ 1 := constantI S_ 1 1#1
  let main_v46 : IVec S_ 1 := (fun x v => Host.reduce IntOp.andi x v reducesTo_S600000x2_S_d0_1 h_S_) main_v45 main_c_17
  let main_v47 : IVec S_ 1 := andi main_v43 main_v46
  main_v47

def fn_part1 {F : FTy → Type} [FloatOps F] (main_arg1 : IVec S600000x2 32) (main_arg5 : FVec F S128 .f32) (main_arg6 : FVec F S256x64 .f32) (main_arg7 : FVec F S64 .f32) (main_arg8 : FVec F S64x1 .f32) (main_arg9 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x64 .f32 := Host.absf main_arg6
  let main_cst_8 : FVec F S_ .f32 := constant S_ .f32 0x7F800000#32
  let main_v25 : FVec F S256x64 .f32 := broadcastInDim S256x64 ![] bcast_S_S256x64 main_cst_8
  let main_v26 : IVec S256x64 1 := cmpf .olt main_v24 main_v25
  let main_c_9 : IVec S_ 1 := constantI S_ 1 1#1
  let main_v27 : IVec S_ 1 := (fun x v => Host.reduce IntOp.andi x v reducesTo_S256x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_v33

def fn {F : FTy → Type} [FloatOps F] (main_arg0 : FVec F S50000x128 .f32) (main_arg1 : IVec S600000x2 32) (main_arg2 : FVec F S128x128 .f32) (main_arg3 : FVec F S128 .f32) (main_arg4 : FVec F S128x128 .f32) (main_arg5 : FVec F S128 .f32) (main_arg6 : FVec F S256x64 .f32) (main_arg7 : FVec F S64 .f32) (main_arg8 : FVec F S64x1 .f32) (main_arg9 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_v13 main_v16
-- ==== Kernel.lean ====
abbrev S50000x128 : Shape := ⟨2, ![50000, 128]⟩
abbrev S600000x2 : Shape := ⟨2, ![600000, 2]⟩
abbrev S128x128 : Shape := ⟨2, ![128, 128]⟩
abbrev S128 : Shape := ⟨1, ![128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S128x64 : Shape := ⟨2, ![128, 64]⟩
abbrev S1x128 : Shape := ⟨2, ![1, 128]⟩
abbrev S50000x64 : Shape := ⟨2, ![50000, 64]⟩
abbrev S5000x128 : Shape := ⟨2, ![5000, 128]⟩
abbrev S5000x64 : Shape := ⟨2, ![5000, 64]⟩
abbrev S600000x1 : Shape := ⟨2, ![600000, 1]⟩
abbrev S600000 : Shape := ⟨1, ![600000]⟩
abbrev S600000x64 : Shape := ⟨2, ![600000, 64]⟩
abbrev S1x64 : Shape := ⟨2, ![1, 64]⟩
abbrev S1x1 : Shape := ⟨2, ![1, 1]⟩
abbrev S6000x64 : Shape := ⟨2, ![6000, 64]⟩
abbrev S6000x1 : Shape := ⟨2, ![6000, 1]⟩

abbrev nBuf : Space → Nat
  | .hbm => 33
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S600000x2, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S50000x128, .bf16⟩
  | .hbm, ⟨11, _⟩ => ⟨S128x128, .bf16⟩
  | .hbm, ⟨12, _⟩ => ⟨S128x128, .bf16⟩
  | .hbm, ⟨13, _⟩ => ⟨S128x64, .f32⟩
  | .hbm, ⟨14, _⟩ => ⟨S128x64, .bf16⟩
  | .hbm, ⟨15, _⟩ => ⟨S128x64, .f32⟩
  | .hbm, ⟨16, _⟩ => ⟨S128x64, .bf16⟩
  | .hbm, ⟨17, _⟩ => ⟨S1x128, .f32⟩
  | .hbm, ⟨18, _⟩ => ⟨S1x128, .f32⟩
  | .hbm, ⟨19, _⟩ => ⟨S50000x64, .bf16⟩
  | .hbm, ⟨20, _⟩ => ⟨S50000x64, .bf16⟩
  | .hbm, ⟨21, _⟩ => ⟨S600000x1, .i32⟩
  | .hbm, ⟨22, _⟩ => ⟨S600000, .i32⟩
  | .hbm, ⟨23, _⟩ => ⟨S600000x1, .i32⟩
  | .hbm, ⟨24, _⟩ => ⟨S600000, .i32⟩
  | .hbm, ⟨25, _⟩ => ⟨S600000x1, .i32⟩
  | .hbm, ⟨26, _⟩ => ⟨S600000x64, .bf16⟩
  | .hbm, ⟨27, _⟩ => ⟨S600000x1, .i32⟩
  | .hbm, ⟨28, _⟩ => ⟨S600000x64, .bf16⟩
  | .hbm, ⟨29, _⟩ => ⟨S64x1, .bf16⟩
  | .hbm, ⟨30, _⟩ => ⟨S1x64, .f32⟩
  | .hbm, ⟨31, _⟩ => ⟨S1x1, .f32⟩
  | .hbm, ⟨32, _⟩ => ⟨S600000x1, .f32⟩
  | .local _ .vmem, ⟨0, _⟩ => ⟨S5000x128, .bf16⟩
  | .local _ .vmem, ⟨1, _⟩ => ⟨S5000x128, .bf16⟩
  | .local _ .vmem, ⟨2, _⟩ => ⟨S128x128, .bf16⟩
  | .local _ .vmem, ⟨3, _⟩ => ⟨S1x128, .f32⟩
  | .local _ .vmem, ⟨4, _⟩ => ⟨S128x128, .bf16⟩
  | .local _ .vmem, ⟨5, _⟩ => ⟨S1x128, .f32⟩
  | .local _ .vmem, ⟨6, _⟩ => ⟨S128x64, .bf16⟩
  | .local _ .vmem, ⟨7, _⟩ => ⟨S128x64, .bf16⟩
  | .local _ .vmem, ⟨8, _⟩ => ⟨S5000x64, .bf16⟩
  | .local _ .vmem, ⟨9, _⟩ => ⟨S5000x64, .bf16⟩
  | .local _ .vmem, ⟨10, _⟩ => ⟨S5000x64, .bf16⟩
  | .local _ .vmem, ⟨11, _⟩ => ⟨S5000x64, .bf16⟩
  | .local _ .vmem, ⟨12, _⟩ => ⟨S6000x64, .bf16⟩
  | .local _ .vmem, ⟨13, _⟩ => ⟨S6000x64, .bf16⟩
  | .local _ .vmem, ⟨14, _⟩ => ⟨S6000x64, .bf16⟩
  | .local _ .vmem, ⟨15, _⟩ => ⟨S6000x64, .bf16⟩
  | .local _ .vmem, ⟨16, _⟩ => ⟨S1x64, .f32⟩
  | .local _ .vmem, ⟨17, _⟩ => ⟨S64x1, .bf16⟩
  | .local _ .vmem, ⟨18, _⟩ => ⟨S1x1, .f32⟩
  | .local _ .vmem, ⟨19, _⟩ => ⟨S6000x1, .f32⟩
  | .local _ .vmem, ⟨20, _⟩ => ⟨S6000x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9_0 : Ref sig .tc := ⟨.hbm, 19, rfl⟩
abbrev main_v9_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call0_v0 : Ref sig .tc := ⟨.hbm, 25, rfl⟩
abbrev main_v14 : Ref sig .tc := ⟨.hbm, 26, rfl⟩
abbrev main_call1_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg5_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x64 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x1 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S6000x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bitsLt_bf16_f32 : FTy.bits .bf16 < FTy.bits .f32
  slices_S256x64_S128x64_0_0 : S256x64.Slices ![0, 0] S128x64
  slices_S256x64_S128x64_128_0 : S256x64.Slices ![128, 0] S128x64
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S5000x64_S5000x64_0_0 : ∀ a, (![0, 0] : Fin 2 → Nat) a + S5000x64.size a ≤ S5000x64.size a
  h_S5000x64 : 0 < S5000x64.numel
  packedbf16_S5000x64_S5000x64_0_0 : (Rect.unit (s := S5000x64) ![0, 0] S5000x64.size inb_S5000x64_S5000x64_0_0).PackedRows (EltTy.packing .bf16)
  slices_S600000x2_S600000x1_0_0 : S600000x2.Slices ![0, 0] S600000x1
  shapeCasts_S600000x1_S600000 : S600000x1.ShapeCasts S600000
  slices_S600000x2_S600000x1_0_1 : S600000x2.Slices ![0, 1] S600000x1
  bcast_S600000_S600000x1_0 : S600000.BroadcastsInDim S600000x1 (![0] : Fin 1 → Fin S600000x1.rank)
  shapeCasts_S64_S1x64 : S64.ShapeCasts S1x64
  shapeCasts_S1_S1x1 : S1.ShapeCasts S1x1
  inb_S6000x64_S6000x64_0_0 : ∀ a, (![0, 0] : Fin 2 → Nat) a + S6000x64.size a ≤ S6000x64.size a
  h_S6000x64 : 0 < S6000x64.numel
  shapeCasts_S6000x64_S6000x64 : S6000x64.ShapeCasts S6000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S6000x64 : S1x64.Broadcasts S6000x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S6000x1 : S1x1.Broadcasts S6000x1
  inb_S6000x1_S6000x1_0_0 : ∀ a, (![0, 0] : Fin 2 → Nat) a + S6000x1.size a ≤ S6000x1.size a
  h_S6000x1 : 0 < S6000x1.numel
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  gather_S50000x64_S600000x1_S600000x64_1_0_n_n_0_1_164_wf : GatherDims.WF S50000x64 S600000x1 S600000x64 [1] [0] [] [0] [] 1 ![1, 64]
  dot_S6000x64_S64x1_S6000x1_1_0_0_1_n_n_wf : DotDims.WF S6000x64 S64x1 S6000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .bf16 = 32 ∨ (Rect.block (s := S50000x128) S5000x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .bf16 = 32 ∨ (Rect.block (s := S128x128) S128x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .bf16 = 32 ∨ (Rect.block (s := S128x64) S128x64.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x64.size a ≤ S128x64.size a
  hwx0_6 : ∀ i : grid0.Coords, EltTy.bits .bf16 = 32 ∨ (Rect.block (s := S128x64) S128x64.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .bf16 = 32 ∨ (Rect.block (s := S50000x64) S5000x64.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x64.size a ≤ S50000x64.size a
  hwx0_8 : ∀ i : grid0.Coords, EltTy.bits .bf16 = 32 ∨ (Rect.block (s := S50000x64) S5000x64.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x64.size a ≤ S600000x64.size a
  hwx1_0 : ∀ i : grid1.Coords, EltTy.bits .bf16 = 32 ∨ (Rect.block (s := S600000x64) S6000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x64.size a ≤ S600000x64.size a
  hwx1_1 : ∀ i : grid1.Coords, EltTy.bits .bf16 = 32 ∨ (Rect.block (s := S600000x64) S6000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x1.size a ≤ S64x1.size a
  hwx1_3 : ∀ i : grid1.Coords, EltTy.bits .bf16 = 32 ∨ (Rect.block (s := S64x1) S64x1.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S6000x1.size a ≤ S600000x1.size a
  hwx1_5 : ∀ i : grid1.Coords, EltTy.bits .f32 = 32 ∨ (Rect.block (s := S600000x1) S6000x1.size (cc1_transform_5 i) (hinb1_5 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def dot_S6000x64_S64x1_S6000x1_1_0_0_1_n_n : DotDims S6000x64 S64x1 S6000x1 where
  lhsContracting := [1]
  rhsContracting := [0]
  lhsNonContracting := [0]
  rhsNonContracting := [1]
  lhsBatch := []
  rhsBatch := []
  wf := dot_S6000x64_S64x1_S6000x1_1_0_0_1_n_n_wf

abbrev win0_0 : Pipeline.Window sig grid0 :=
  Pipeline.Window.ofSpec (Memref.whole main_v0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S128x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9_0) S5000x64.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v9_1) S5000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v14) S6000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S6000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S64x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v18) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v19) S6000x1.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S600000x2 : Shape := ⟨2, ![600000, 2]⟩
abbrev S128x128 : Shape := ⟨2, ![128, 128]⟩
abbrev S128 : Shape := ⟨1, ![128]⟩
abbrev S256x64 : Shape := ⟨2, ![256, 64]⟩
abbrev S64 : Shape := ⟨1, ![64]⟩
abbrev S64x1 : Shape := ⟨2, ![64, 1]⟩
abbrev S1 : Shape := ⟨1, ![1]⟩
abbrev S600000x1 : Shape := ⟨2, ![600000, 1]⟩
abbrev S600000 : Shape := ⟨1, ![600000]⟩
abbrev S_ : Shape := ⟨0, ![]⟩
abbrev S600000x128 : Shape := ⟨2, ![600000, 128]⟩
abbrev S1x128 : Shape := ⟨2, ![1, 128]⟩
abbrev S600000x256 : Shape := ⟨2, ![600000, 256]⟩
abbrev S600000x64 : Shape := ⟨2, ![600000, 64]⟩
abbrev S1x64 : Shape := ⟨2, ![1, 64]⟩
abbrev S1x1 : Shape := ⟨2, ![1, 1]⟩

abbrev nBuf : Space → Nat
  | .hbm => 58
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S600000x2, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S600000x1, .i32⟩
  | .hbm, ⟨11, _⟩ => ⟨S600000, .i32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S600000x1, .i32⟩
  | .hbm, ⟨22, _⟩ => ⟨S600000, .i32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S600000x128, .f32⟩
  | .hbm, ⟨33, _⟩ => ⟨S1x128, .f32⟩
  | .hbm, ⟨34, _⟩ => ⟨S600000x128, .f32⟩
  | .hbm, ⟨35, _⟩ => ⟨S600000x128, .f32⟩
  | .hbm, ⟨36, _⟩ => ⟨S_, .f32⟩
  | .hbm, ⟨37, _⟩ => ⟨S600000x128, .f32⟩
  | .hbm, ⟨38, _⟩ => ⟨S600000x128, .f32⟩
  | .hbm, ⟨39, _⟩ => ⟨S600000x128, .f32⟩
  | .hbm, ⟨40, _⟩ => ⟨S1x128, .f32⟩
  | .hbm, ⟨41, _⟩ => ⟨S600000x128, .f32⟩
  | .hbm, ⟨42, _⟩ => ⟨S600000x128, .f32⟩
  | .hbm, ⟨43, _⟩ => ⟨S_, .f32⟩
  | .hbm, ⟨44, _⟩ => ⟨S600000x128, .f32⟩
  | .hbm, ⟨45, _⟩ => ⟨S600000x128, .f32⟩
  | .hbm, ⟨46, _⟩ => ⟨S600000x256, .f32⟩
  | .hbm, ⟨47, _⟩ => ⟨S600000x64, .f32⟩
  | .hbm, ⟨48, _⟩ => ⟨S1x64, .f32⟩
  | .hbm, ⟨49, _⟩ => ⟨S600000x64, .f32⟩
  | .hbm, ⟨50, _⟩ => ⟨S600000x64, .f32⟩
  | .hbm, ⟨51, _⟩ => ⟨S_, .f32⟩
  | .hbm, ⟨52, _⟩ => ⟨S600000x64, .f32⟩
  | .hbm, ⟨53, _⟩ => ⟨S600000x64, .f32⟩
  | .hbm, ⟨54, _⟩ => ⟨S600000x1, .f32⟩
  | .hbm, ⟨55, _⟩ => ⟨S1x1, .f32⟩
  | .hbm, ⟨56, _⟩ => ⟨S600000x1, .f32⟩
  | .hbm, ⟨57, _⟩ => ⟨S600000x1, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_call0_cst : Ref sig .tc := ⟨.hbm, 36, rfl⟩
abbrev main_call0_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_call1_cst : Ref sig .tc := ⟨.hbm, 43, rfl⟩
abbrev main_call1_v0 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_call2_cst : Ref sig .tc := ⟨.hbm, 51, rfl⟩
abbrev main_call2_v0 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]

class Facts₀ : Prop where
  slices_S600000x2_S600000x1_0_0 : S600000x2.Slices ![0, 0] S600000x1
  shapeCasts_S600000x1_S600000 : S600000x1.ShapeCasts S600000
  bcast_S_S600000 : S_.BroadcastsInDim S600000 (![] : Fin 0 → Fin S600000.rank)
  bcast_S600000_S600000x1_0 : S600000.BroadcastsInDim S600000x1 (![0] : Fin 1 → Fin S600000x1.rank)
  slices_S600000x2_S600000x1_0_1 : S600000x2.Slices ![0, 1] S600000x1
  bcast_S128_S1x128_1 : S128.BroadcastsInDim S1x128 (![1] : Fin 1 → Fin S1x128.rank)
  bcast_S1x128_S600000x128_0_1 : S1x128.BroadcastsInDim S600000x128 (![0, 1] : Fin 2 → Fin S600000x128.rank)
  bcast_S_S600000x128 : S_.BroadcastsInDim S600000x128 (![] : Fin 0 → Fin S600000x128.rank)
  concatenates_S600000x128_S600000x128_S600000x256_d1 : Shape.Concatenates [S600000x128, S600000x128] S600000x256 1
  bcast_S64_S1x64_1 : S64.BroadcastsInDim S1x64 (![1] : Fin 1 → Fin S1x64.rank)
  bcast_S1x64_S600000x64_0_1 : S1x64.BroadcastsInDim S600000x64 (![0, 1] : Fin 2 → Fin S600000x64.rank)
  bcast_S_S600000x64 : S_.BroadcastsInDim S600000x64 (![] : Fin 0 → Fin S600000x64.rank)
  bcast_S1_S1x1_1 : S1.BroadcastsInDim S1x1 (![1] : Fin 1 → Fin S1x1.rank)
  bcast_S1x1_S600000x1_0_1 : S1x1.BroadcastsInDim S600000x1 (![0, 1] : Fin 2 → Fin S600000x1.rank)
  gather_S50000x128_S600000x1_S600000x128_1_0_n_n_0_1_1128_wf : GatherDims.WF S50000x128 S600000x1 S600000x128 [1] [0] [] [0] [] 1 ![1, 128]
  dot_S600000x128_S128x128_S600000x128_1_0_0_1_n_n_wf : DotDims.WF S600000x128 S128x128 S600000x128 [1] [0] [0] [1] [] []
  dot_S600000x256_S256x64_S600000x64_1_0_0_1_n_n_wf : DotDims.WF S600000x256 S256x64 S600000x64 [1] [0] [0] [1] [] []
  dot_S600000x64_S64x1_S600000x1_1_0_0_1_n_n_wf : DotDims.WF S600000x64 S64x1 S600000x1 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def dot_S600000x128_S128x128_S600000x128_1_0_0_1_n_n : DotDims S600000x128 S128x128 S600000x128 where
  lhsContracting := [1]
  rhsContracting := [0]
  lhsNonContracting := [0]
  rhsNonContracting := [1]
  lhsBatch := []
  rhsBatch := []
  wf := dot_S600000x128_S128x128_S600000x128_1_0_0_1_n_n_wf
def dot_S600000x256_S256x64_S600000x64_1_0_0_1_n_n : DotDims S600000x256 S256x64 S600000x64 where
  lhsContracting := [1]
  rhsContracting := [0]
  lhsNonContracting := [0]
  rhsNonContracting := [1]
  lhsBatch := []
  rhsBatch := []
  wf := dot_S600000x256_S256x64_S600000x64_1_0_0_1_n_n_wf
def dot_S600000x64_S64x1_S600000x1_1_0_0_1_n_n : DotDims S600000x64 S64x1 S600000x1 where
  lhsContracting := [1]
  rhsContracting := [0]
  lhsNonContracting := [0]
  rhsNonContracting := [1]
  lhsBatch := []
  rhsBatch := []
  wf := dot_S600000x64_S64x1_S600000x1_1_0_0_1_n_n_wf

class Facts : Prop extends Facts₀ where

variable [Facts]
-- ==== Proof.EdgeRange.lean ====
/-
  The precondition, read back: every entry of the edge array is a non-negative word when read signed. The printed
  predicate ends in `… & all(edges ≥ 0)`: a conjunction of `i1` words that is 1 has both conjuncts 1, an
  and-reduction over all axes that is 1 had a 1 at every index, and a signed `≥` comparison word that is 1 says the
  signed readings compare so.
-/
import proofs.«423351_j27590869910157_3_alg».proof.Pre_finite_inputs
import proofs.«423351_j27590869910157_3_alg».proof.Proof.Gen.Pre_finite_inputs
import Idealize.ShloMosaic.Lib.ReduceAll
import Idealize.ShloMosaic.Lib.Affine
import Idealize.ShloMosaic.Lib.ValueIdx

noncomputable section

namespace Cert.EdgeRange

open Idealize.ShloMosaic Idealize.ShloMosaic.ValueIdx Cert.Pre_finite_inputs

/-- The shape with no axes has one index. -/
instance : Subsingleton S_.Idx := ⟨fun a b => funext fun d => d.elim0⟩

/-- Under the precondition every edge entry, read signed, is non-negative. -/
theorem nonneg_of_pre {F : FTy → Type} [FloatOps F] [Cert.Pre_finite_inputs.Facts]
    (a0 : FVec F S50000x128 .f32) (a1 : IVec S600000x2 32) (a2 : FVec F S128x128 .f32) (a3 : FVec F S128 .f32)
    (a4 : FVec F S128x128 .f32) (a5 : FVec F S128 .f32) (a6 : FVec F S256x64 .f32) (a7 : FVec F S64 .f32)
    (a8 : FVec F S64x1 .f32) (a9 : FVec F S1 .f32)
    (h : Cert.Pre_finite_inputs.fn (F := F) a0 a1 a2 a3 a4 a5 a6 a7 a8 a9 = fun _ => 1#1) (i : S600000x2.Idx) :
    0 ≤ (a1 i).toInt := by
  have h0 := congrFun h ix0
  dsimp only [Cert.Pre_finite_inputs.fn, Cert.Pre_finite_inputs.fn_part1, Cert.Pre_finite_inputs.fn_part2] at h0
  obtain ⟨-, h46⟩ := IntOp.andi_eq_one.1 h0
  have hi := Host.reduce_andi_all _ _ _ _ ix0 h46 i
  have := IntOp.cmpi_sge.1 hi
  exact this

end Cert.EdgeRange

end
-- ==== Proof.LibPlainDot.lean ====
/-
  A plain product of an m×k array by a k×n array, accumulated into the zero array and read at one entry. Over the
  extended reals it is the sum, over the contracted coordinate, of the products of the two arrays' entries — the same
  sum the host's product of the same two arrays is at that entry.
-/
import Idealize.ShloMosaic.Lib.StackMember
import Idealize.ShloMosaic.PureOps.Ideal.Laws

noncomputable section

namespace Cert.Lib.PlainDot

open Idealize.ShloMosaic Idealize.ShloMosaic.ValueIdx

/-- `A · B` into the zero accumulator, at entry `(a, b)`: `∑ c, A[a, c] * B[c, b]`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  refine Eq.trans ?_ (StackMember.dotGeneral_plain_apply prec A B a b)
  show FloatOps.matmul _ prec A B _ (ix2 a b) = FloatOps.dotGeneral _ prec _ A B (ix2 a b)
  rw [Ideal.matmul_constant_zero_apply, Ideal.dotGeneral_apply]

end Cert.Lib.PlainDot

end
-- ==== Proof.Spec.lean ====
/-
  The attention score of an edge, as one function of the ten input arrays and of the edge's two endpoint nodes.

  For a node `n`, a 128×128 weight array `W` and a bias `b`, the hidden unit `k` is `max(∑_d feat[n,d]·W[d,k] + b[k], 0)`.
  A node's 64 projected values through 128 rows of the 256×64 attention array `A` (the rows `sel k`) are
  `∑_k hidden[n,k]·A[sel k, j]`. The score of an edge with endpoints `n0`, `n1` is
  `∑_j max(proj_top[n0,j] + proj_bot[n1,j] + b1[j], 0)·w2[j] + b2`, the first endpoint projected through the upper half
  of `A` with the neighbour weights and the second through the lower half with the self weights.

  The only law the two programs need is that a sum over 256 coordinates is the sum over its two halves
  (`sum_halves`): addition of extended reals is commutative and associative, so no finiteness is used.
-/
import Idealize.ShloMosaic.PureOps.Ideal
import Idealize.ShloMosaic.PureOps.Ideal.Laws
import Idealize.ShloMosaic.Lib.ValueIdx
import Mathlib.Algebra.BigOperators.Fin

noncomputable section

namespace Cert.EdgeAttn

open Idealize.ShloMosaic Idealize.ShloMosaic.ValueIdx

/-- An r×c array and a length-n vector of extended reals. -/
abbrev Arr (r c : Nat) := (⟨2, ![r, c]⟩ : Shape).Idx → EReal
abbrev Arr1 (n : Nat) := (⟨1, ![n]⟩ : Shape).Idx → EReal

/-- The float word `0.0` both programs print, as the extended real it denotes. -/
abbrev zeroWord : EReal := Ideal.ofBits .f32 0x00000000#32

/-- Row `k` of the upper half, and of the lower half, of a 256-row array. -/
def top (k : Fin 128) : Fin 256 := ⟨k.val, by omega⟩
def bot (k : Fin 128) : Fin 256 := ⟨128 + k.val, by omega⟩

/-- Hidden unit `k` of node `n`: `max(feat[n,:]·W[:,k] + b[k], 0)`. -/
def hidden (feat : Arr 50000 128) (W : Arr 128 128) (b : Arr1 128) (n : Fin 50000) (k : Fin 128) : EReal :=
  max ((∑ d : Fin 128, feat (ix2 n d) * W (ix2 d k)) + b (ix1 k)) zeroWord

/-- Node `n`'s projection through the rows `sel k` of the attention array: `∑_k hidden[n,k]·A[sel k, j]`. -/
def nodeTable (feat : Arr 50000 128) (W : Arr 128 128) (b : Arr1 128) (A : Arr 256 64) (sel : Fin 128 → Fin 256)
    (n : Fin 50000) (j : Fin 64) : EReal :=
  ∑ k : Fin 128, hidden feat W b n k * A (ix2 (sel k) j)

/-- The score of an edge whose endpoints are the nodes `n0` and `n1`. -/
def edgeScore (feat : Arr 50000 128) (Wnb : Arr 128 128) (bnb : Arr1 128) (Wself : Arr 128 128) (bself : Arr1 128)
    (A : Arr 256 64) (b1 : Arr1 64) (w2 : Arr 64 1) (b2 : Arr1 1) (n0 n1 : Fin 50000) : EReal :=
  (∑ j : Fin 64, max (nodeTable feat Wnb bnb A top n0 j + nodeTable feat Wself bself A bot n1 j + b1 (ix1 j)) zeroWord
      * w2 (ix2 j 0)) + b2 (ix1 0)

/-- The node a word names: read signed, clamped into `[0, 49999]`. -/
def nodeOf (w : BitVec 32) : Fin 50000 := ⟨min w.toInt.toNat (50000 - 1), by omega⟩

/-- A sum over 256 coordinates is the sum over the upper half plus the sum over the lower half. -/
theorem sum_halves (f : Fin 256 → EReal) : ∑ k : Fin 256, f k = (∑ k : Fin 128, f (top k)) + ∑ k : Fin 128, f (bot k) :=
  Fin.sum_univ_add (a := 128) (b := 128) (f : Fin (128 + 128) → EReal)

end Cert.EdgeAttn

end
-- ==== Proof.NodeProj.lean ====
/-
  What the first call leaves in its two result arrays, as functions of the seven arrays it is given.

  The call walks the 50000 nodes in 10 blocks of 5000 rows. At each block the body multiplies the 5000×128 block of
  features by a 128×128 weight array (a plain product into the zero accumulator: a sum over the 128 columns), adds the
  bias row, takes the maximum with zero, and multiplies by a 128×64 array (again a plain sum over 128); the narrowing
  between the two products is the identity on extended reals. So entry `(n, j)` of a result is
  `∑_k max(∑_d x[n,d]·w[d,k] + b[0,k], 0)·a[k,j]`, whatever block `n` lies in: block `t` reads rows `5000·t + p` of the
  features, and the blocks tile each result (row `n` is in block `n / 5000`). The two results differ only in which
  weight, bias and attention arrays they read.
-/
import proofs.«423351_j27590869910157_3_alg».proof.Proof.Gen.KernelIdeal.Frame
import proofs.«423351_j27590869910157_3_alg».proof.Proof.LibPlainDot
import proofs.«423351_j27590869910157_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.NodeProj

open Cert.KernelIdeal Cert.KernelIdeal.Gen Cert.EdgeAttn Cert.Lib
open Idealize.ShloMosaic Idealize.ShloMosaic.TcCoe Idealize.ShloMosaic.ValueIdx Idealize.SL.Sem
open Idealize.ShloMosaic.Pipeline (Dat)

/-- One node's 64 projected values over the arrays the call is given: features, weights, bias row, attention rows. -/
def table (x : Arr 50000 128) (w : Arr 128 128) (b : Arr 1 128) (a : Arr 128 64) (n : Fin 50000) (j : Fin 64) : EReal :=
  ∑ k : Fin 128, max ((∑ d : Fin 128, x (ix2 n d) * w (ix2 d k)) + b (ix2 0 k)) zeroWord * a (ix2 k j)

/-- The first stored value at entry `(p, q)` of a block, from the loaded blocks. -/
theorem pay2_apply (x0 : FVec Ideal S5000x128 .bf16) (w : FVec Ideal S128x128 .bf16) (b : FVec Ideal S1x128 .f32)
    (a : FVec Ideal S128x64 .bf16) (p : Fin 5000) (q : Fin 64) :
    k0_pay2 (F := Ideal) x0 w b a (ix2 p q)
      = ∑ k : Fin 128, max ((∑ d : Fin 128, x0 (ix2 p d) * w (ix2 d k)) + b (ix2 0 k)) zeroWord * a (ix2 k q) := by
  unfold k0_pay2 k0_pay1
  simp only [shapeCast_self]
  show matmul (DotDims.plain 5000 128 64) none _ _ (constant (F := Ideal) ⟨2, ![5000, 64]⟩ .f32 0x00000000#32) (ix2 p q) = _
  rw [PlainDot.matmul_plain_zero_apply]
  refine Finset.sum_congr rfl fun k _ => ?_
  show max (matmul (DotDims.plain 5000 128 128) none x0 w (constant (F := Ideal) ⟨2, ![5000, 128]⟩ .f32 0x00000000#32) (ix2 p k)
      + broadcastTo ⟨2, ![5000, 128]⟩ b _ (ix2 p k)) _ * a (ix2 k q) = _
  rw [PlainDot.matmul_plain_zero_apply, broadcastTo_1b_ab_apply]
  rfl

/-- The second stored value: the same function of its own weight, bias and attention blocks. -/
theorem pay3_apply (x0 : FVec Ideal S5000x128 .bf16) (w : FVec Ideal S128x128 .bf16) (b : FVec Ideal S1x128 .f32)
    (a : FVec Ideal S128x64 .bf16) (p : Fin 5000) (q : Fin 64) :
    k0_pay3 (F := Ideal) x0 w b a (ix2 p q)
      = ∑ k : Fin 128, max ((∑ d : Fin 128, x0 (ix2 p d) * w (ix2 d k)) + b (ix2 0 k)) zeroWord * a (ix2 k q) := by
  unfold k0_pay3 k0_pay1
  simp only [shapeCast_self]
  show matmul (DotDims.plain 5000 128 64) none _ _ (constant (F := Ideal) ⟨2, ![5000, 64]⟩ .f32 0x00000000#32) (ix2 p q) = _
  rw [PlainDot.matmul_plain_zero_apply]
  refine Finset.sum_congr rfl fun k _ => ?_
  show max (matmul (DotDims.plain 5000 128 128) none x0 w (constant (F := Ideal) ⟨2, ![5000, 128]⟩ .f32 0x00000000#32) (ix2 p k)
      + broadcastTo ⟨2, ![5000, 128]⟩ b _ (ix2 p k)) _ * a (ix2 k q) = _
  rw [PlainDot.matmul_plain_zero_apply, broadcastTo_1b_ab_apply]
  rfl

variable (V : (c : Dev nD) → (b : Ref sig .tc) → Buf (Elt Ideal) ((c : Thread nD τ).loc b))

theorem hz : (![0, 0] : Fin 2 → Nat) = fun _ => 0 := funext fun a => by fin_cases a <;> rfl

/-- The two result arrays as functions of the call's arrays as the region finds them. -/
abbrev G7 (c : Dev nD) : S50000x64.Idx → EReal := fun i =>
  table (V c main_v0) (V c main_v1) (V c main_v7) (V c main_v4) (i 0) (i 1)
abbrev G8 (c : Dev nD) : S50000x64.Idx → EReal := fun i =>
  table (V c main_v0) (V c main_v2) (V c main_v8) (V c main_v6) (i 0) (i 1)

/-- The printed index maps over the 10 points: the features and the two results move one block of rows per point,
    the six small operands stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

theorem t_lt (t : Fin cfg0.N) : t.val < 10 := lt_of_lt_of_eq t.isLt N_0

/-- Row `p` of block `t`, as a row of the whole arrays. -/
def row (t : Fin cfg0.N) (p : Fin 5000) : Fin 50000 := ⟨t.val * 5000 + p.val, by have := t_lt t; omega⟩

/-- Block `t` of the features holds their rows `5000·t + p`. -/
theorem blkX (c : Dev nD) (t : Fin cfg0.N) (p : Fin 5000) (d : Fin 128) :
    iblk0 V c 0 t (ix2 p d) = V c main_v0 (ix2 (row t p) d) := by
  have e := idx_facts t
  show V c main_v0 (((cfg0.win 0).blk t).view.emb (ix2 p d)) = _
  refine congrArg _ (funext fun ax => Fin.ext ?_)
  match ax with
  | ⟨0, _⟩ => show win0_0.index t (0 : Fin 2) * 5000 + 1 * p.val = t.val * 5000 + p.val; omega
  | ⟨1, _⟩ => show win0_0.index t (1 : Fin 2) * 128 + 1 * d.val = d.val; omega

/-- The six small operands are read whole at every point. -/
theorem blk1 (c : Dev nD) (t : Fin cfg0.N) (a : Fin 128) (b : Fin 128) : iblk0 V c 1 t (ix2 a b) = V c main_v1 (ix2 a b) := by
  have e := idx_facts t
  show V c main_v1 (((cfg0.win 1).blk t).view.emb (ix2 a b)) = _
  refine congrArg _ (funext fun ax => Fin.ext ?_)
  match ax with
  | ⟨0, _⟩ => show win0_1.index t (0 : Fin 2) * 128 + 1 * a.val = a.val; omega
  | ⟨1, _⟩ => show win0_1.index t (1 : Fin 2) * 128 + 1 * b.val = b.val; omega

theorem blk2 (c : Dev nD) (t : Fin cfg0.N) (a : Fin 1) (b : Fin 128) : iblk0 V c 2 t (ix2 a b) = V c main_v7 (ix2 a b) := by
  have e := idx_facts t
  show V c main_v7 (((cfg0.win 2).blk t).view.emb (ix2 a b)) = _
  refine congrArg _ (funext fun ax => Fin.ext ?_)
  match ax with
  | ⟨0, _⟩ => show win0_2.index t (0 : Fin 2) * 1 + 1 * a.val = a.val; omega
  | ⟨1, _⟩ => show win0_2.index t (1 : Fin 2) * 128 + 1 * b.val = b.val; omega

theorem blk3 (c : Dev nD) (t : Fin cfg0.N) (a : Fin 128) (b : Fin 128) : iblk0 V c 3 t (ix2 a b) = V c main_v2 (ix2 a b) := by
  have e := idx_facts t
  show V c main_v2 (((cfg0.win 3).blk t).view.emb (ix2 a b)) = _
  refine congrArg _ (funext fun ax => Fin.ext ?_)
  match ax with
  | ⟨0, _⟩ => show win0_3.index t (0 : Fin 2) * 128 + 1 * a.val = a.val; omega
  | ⟨1, _⟩ => show win0_3.index t (1 : Fin 2) * 128 + 1 * b.val = b.val; omega

theorem blk4 (c : Dev nD) (t : Fin cfg0.N) (a : Fin 1) (b : Fin 128) : iblk0 V c 4 t (ix2 a b) = V c main_v8 (ix2 a b) := by
  have e := idx_facts t
  show V c main_v8 (((cfg0.win 4).blk t).view.emb (ix2 a b)) = _
  refine congrArg _ (funext fun ax => Fin.ext ?_)
  match ax with
  | ⟨0, _⟩ => show win0_4.index t (0 : Fin 2) * 1 + 1 * a.val = a.val; omega
  | ⟨1, _⟩ => show win0_4.index t (1 : Fin 2) * 128 + 1 * b.val = b.val; omega

theorem blk5 (c : Dev nD) (t : Fin cfg0.N) (a : Fin 128) (b : Fin 64) : iblk0 V c 5 t (ix2 a b) = V c main_v4 (ix2 a b) := by
  have e := idx_facts t
  show V c main_v4 (((cfg0.win 5).blk t).view.emb (ix2 a b)) = _
  refine congrArg _ (funext fun ax => Fin.ext ?_)
  match ax with
  | ⟨0, _⟩ => show win0_5.index t (0 : Fin 2) * 128 + 1 * a.val = a.val; omega
  | ⟨1, _⟩ => show win0_5.index t (1 : Fin 2) * 64 + 1 * b.val = b.val; omega

theorem blk6 (c : Dev nD) (t : Fin cfg0.N) (a : Fin 128) (b : Fin 64) : iblk0 V c 6 t (ix2 a b) = V c main_v6 (ix2 a b) := by
  have e := idx_facts t
  show V c main_v6 (((cfg0.win 6).blk t).view.emb (ix2 a b)) = _
  refine congrArg _ (funext fun ax => Fin.ext ?_)
  match ax with
  | ⟨0, _⟩ => show win0_6.index t (0 : Fin 2) * 128 + 1 * a.val = a.val; omega
  | ⟨1, _⟩ => show win0_6.index t (1 : Fin 2) * 64 + 1 * b.val = b.val; omega

/-- WHAT POINT `t` WRITES BACK to the first result is block `t` of `G7`. -/
theorem flushed7_eq (c : Dev nD) (t : Fin cfg0.N) :
    (dat0 V c).flushed 7 t = ((cfg0.win 7).blk t).view.read (Elt Ideal) (G7 V c) := by
  show (cfg0.win 7).cut (grid0.coords t) ((dat0 V c).after 7 t) = _
  rw [after0_7]
  unfold out0_7
  rw [View.canon_unit_zero hz]
  simp only [View.ld_unit_zero (S := S5000x128) hz, View.ld_unit_zero (S := S128x128) hz, View.ld_unit_zero (S := S1x128) hz,
    View.ld_unit_zero (S := S128x64) hz]
  have e := idx_facts t
  funext y
  obtain ⟨p, q, rfl⟩ : ∃ (p : Fin 5000) (q : Fin 64), y = ix2 p q := ⟨y 0, y 1, eq_ix2 y⟩
  refine (pay2_apply (iblk0 V c 0 t) (iblk0 V c 1 t) (iblk0 V c 2 t) (iblk0 V c 5 t) p q).trans ?_
  show _ = table (V c main_v0) (V c main_v1) (V c main_v7) (V c main_v4)
    ((((cfg0.win 7).blk t).view.emb (ix2 p q)) 0) ((((cfg0.win 7).blk t).view.emb (ix2 p q)) 1)
  have hrow : (((cfg0.win 7).blk t).view.emb (ix2 p q)) 0 = row t p :=
    Fin.ext (by show win0_7.index t (0 : Fin 2) * 5000 + 1 * p.val = t.val * 5000 + p.val; omega)
  have hcol : (((cfg0.win 7).blk t).view.emb (ix2 p q)) 1 = q :=
    Fin.ext (by show win0_7.index t (1 : Fin 2) * 64 + 1 * q.val = q.val; omega)
  rw [hrow, hcol]
  unfold table
  simp only [blkX, blk1, blk2, blk5]

/-- WHAT POINT `t` WRITES BACK to the second result is block `t` of `G8`. -/
theorem flushed8_eq (c : Dev nD) (t : Fin cfg0.N) :
    (dat0 V c).flushed 8 t = ((cfg0.win 8).blk t).view.read (Elt Ideal) (G8 V c) := by
  show (cfg0.win 8).cut (grid0.coords t) ((dat0 V c).after 8 t) = _
  rw [after0_8]
  unfold out0_8
  rw [View.canon_unit_zero hz]
  simp only [View.ld_unit_zero (S := S5000x128) hz, View.ld_unit_zero (S := S128x128) hz, View.ld_unit_zero (S := S1x128) hz,
    View.ld_unit_zero (S := S128x64) hz]
  have e := idx_facts t
  funext y
  obtain ⟨p, q, rfl⟩ : ∃ (p : Fin 5000) (q : Fin 64), y = ix2 p q := ⟨y 0, y 1, eq_ix2 y⟩
  refine (pay3_apply (iblk0 V c 0 t) (iblk0 V c 3 t) (iblk0 V c 4 t) (iblk0 V c 6 t) p q).trans ?_
  show _ = table (V c main_v0) (V c main_v2) (V c main_v8) (V c main_v6)
    ((((cfg0.win 8).blk t).view.emb (ix2 p q)) 0) ((((cfg0.win 8).blk t).view.emb (ix2 p q)) 1)
  have hrow : (((cfg0.win 8).blk t).view.emb (ix2 p q)) 0 = row t p :=
    Fin.ext (by show win0_8.index t (0 : Fin 2) * 5000 + 1 * p.val = t.val * 5000 + p.val; omega)
  have hcol : (((cfg0.win 8).blk t).view.emb (ix2 p q)) 1 = q :=
    Fin.ext (by show win0_8.index t (1 : Fin 2) * 64 + 1 * q.val = q.val; omega)
  rw [hrow, hcol]
  unfold table
  simp only [blkX, blk3, blk4, blk6]

/-- An index of a result is in point `t`'s block iff each coordinate is in the block's range on its axis. -/
theorem mem_blk7 (t : Fin cfg0.N) (i : S50000x64.Idx) :
    i ∈ ((cfg0.win 7).blk t).view.set ↔ ∀ a : Fin 2, win0_7.index t a * S5000x64.size a ≤ (i a).val
      ∧ (i a).val < win0_7.index t a * S5000x64.size a + S5000x64.size a := by
  show i ∈ ((View.whole main_v9_0).slice (win0_7.rect t)).set ↔ _
  rw [View.set_slice_whole, Rect.mem_set_unit]
  exact Iff.rfl

theorem mem_blk8 (t : Fin cfg0.N) (i : S50000x64.Idx) :
    i ∈ ((cfg0.win 8).blk t).view.set ↔ ∀ a : Fin 2, win0_8.index t a * S5000x64.size a ≤ (i a).val
      ∧ (i a).val < win0_8.index t a * S5000x64.size a + S5000x64.size a := by
  show i ∈ ((View.whole main_v9_1).slice (win0_8.rect t)).set ↔ _
  rw [View.set_slice_whole, Rect.mem_set_unit]
  exact Iff.rfl

/-- The 10 blocks tile each result: row `n` is in block `n / 5000`. -/
theorem cover7 (i : S50000x64.Idx) :
    ∃ t : Fin cfg0.N, (cfg0.win 7).flush t = true ∧ i ∈ ((cfg0.win 7).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  have e := idx_facts t
  have ht : t.val = (i 0).val / 5000 := rfl
  refine ⟨t, flush0_7 t, ?_⟩
  rw [mem_blk7]
  intro a
  match a with
  | ⟨0, _⟩ => show win0_7.index t (0 : Fin 2) * 5000 ≤ (i 0).val ∧ (i 0).val < win0_7.index t (0 : Fin 2) * 5000 + 5000; omega
  | ⟨1, _⟩ => show win0_7.index t (1 : Fin 2) * 64 ≤ (i 1).val ∧ (i 1).val < win0_7.index t (1 : Fin 2) * 64 + 64; omega

theorem cover8 (i : S50000x64.Idx) :
    ∃ t : Fin cfg0.N, (cfg0.win 8).flush t = true ∧ i ∈ ((cfg0.win 8).blk t).view.set := by
  have hi0 : (i 0).val < 50000 := (i 0).isLt
  have hi1 : (i 1).val < 64 := (i 1).isLt
  have hN : cfg0.N = 10 := N_0
  let t : Fin cfg0.N := ⟨(i 0).val / 5000, by rw [hN]; omega⟩
  have e := idx_facts t
  have ht : t.val = (i 0).val / 5000 := rfl
  refine ⟨t, flush0_8 t, ?_⟩
  rw [mem_blk8]
  intro a
  match a with
  | ⟨0, _⟩ => show win0_8.index t (0 : Fin 2) * 5000 ≤ (i 0).val ∧ (i 0).val < win0_8.index t (0 : Fin 2) * 5000 + 5000; omega
  | ⟨1, _⟩ => show win0_8.index t (1 : Fin 2) * 64 ≤ (i 1).val ∧ (i 1).val < win0_8.index t (1 : Fin 2) * 64 + 64; omega

/-- THE TWO RESULT ARRAYS after the region. -/
theorem final7 (c : Dev nD) : (dat0 V c).arrAt 7 cfg0.N = G7 V c :=
  (dat0 V c).arrAt_eq_of_cover 7 (G7 V c) (fun t _ => flushed7_eq V c t) cover7

theorem final8 (c : Dev nD) : (dat0 V c).arrAt 8 cfg0.N = G8 V c :=
  (dat0 V c).arrAt_eq_of_cover 8 (G8 V c) (fun t _ => flushed8_eq V c t) cover8

end Cert.KernelIdeal.NodeProj

end
-- ==== Proof.EdgeCombine.lean ====
/-
  What the second call leaves in its result array, as one function of the five arrays it is given.

  The call walks the 600000 edges in 100 blocks of 6000 rows. At each block the body adds the two gathered 6000×64
  blocks and the bias row, takes the maximum with zero, multiplies by the 64×1 weight column (a plain product into the
  zero accumulator: a sum over the 64 columns) and adds the one bias word. So row `e` of the result is
  `∑_j max(g1[e,j] + g2[e,j] + b1[0,j], 0)·w2[j,0] + b2[0,0]`, whatever block `e` lies in: block `t` reads rows
  `6000·t + p` of the two gathered arrays, and the blocks tile the result (row `e` is in block `e / 6000`).
-/
import proofs.«423351_j27590869910157_3_alg».proof.Proof.Gen.KernelIdeal.Frame
import proofs.«423351_j27590869910157_3_alg».proof.Proof.LibPlainDot
import proofs.«423351_j27590869910157_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.EdgeCombine

open Cert.KernelIdeal Cert.KernelIdeal.Gen Cert.EdgeAttn Cert.Lib
open Idealize.ShloMosaic Idealize.ShloMosaic.TcCoe Idealize.ShloMosaic.ValueIdx Idealize.SL.Sem
open Idealize.ShloMosaic.Pipeline (Dat)

/-- The combine of one edge over the arrays the call is given: the two gathered tables, the bias row, the weight
    column and the bias word. -/
def combine (g1 g2 : Arr 600000 64) (b1 : Arr 1 64) (w2 : Arr 64 1) (b2 : Arr 1 1) (e : Fin 600000) : EReal :=
  (∑ j : Fin 64, max (g1 (ix2 e j) + g2 (ix2 e j) + b1 (ix2 0 j)) zeroWord * w2 (ix2 j 0)) + b2 (ix2 0 0)

/-- The body's stored value at row `p` of a block, from the five loaded blocks. -/
theorem pay_apply (x0 x1 : FVec Ideal S6000x64 .bf16) (x2 : FVec Ideal S1x64 .f32) (x3 : FVec Ideal S64x1 .bf16)
    (x4 : FVec Ideal S1x1 .f32) (p : Fin 6000) (q : Fin 1) :
    k1_pay1 (F := Ideal) x0 x1 x2 x3 x4 (ix2 p q)
      = (∑ j : Fin 64, max (x0 (ix2 p j) + x1 (ix2 p j) + x2 (ix2 0 j)) zeroWord * x3 (ix2 j q)) + x4 (ix2 0 q) := by
  unfold k1_pay1
  simp only [shapeCast_self]
  show matmul (DotDims.plain 6000 64 1) none _ _ (constant (F := Ideal) ⟨2, ![6000, 1]⟩ .f32 0x00000000#32) (ix2 p q)
      + broadcastTo ⟨2, ![6000, 1]⟩ x4 _ (ix2 p q) = _
  rw [PlainDot.matmul_plain_zero_apply, broadcastTo_1b_ab_apply]
  refine congrArg (· + x4 (ix2 0 q)) (Finset.sum_congr rfl fun j _ => ?_)
  show max (x0 (ix2 p j) + x1 (ix2 p j) + broadcastTo ⟨2, ![6000, 64]⟩ x2 _ (ix2 p j)) _ * x3 (ix2 j q) = _
  rw [broadcastTo_1b_ab_apply]
  rfl

variable (V : (c : Dev nD) → (b : Ref sig .tc) → Buf (Elt Ideal) ((c : Thread nD τ).loc b))

theorem hz : (![0, 0] : Fin 2 → Nat) = fun _ => 0 := funext fun a => by fin_cases a <;> rfl

/-- The result array as one function of the call's five arrays as the region finds them. -/
abbrev G (c : Dev nD) : S600000x1.Idx → EReal := fun i =>
  combine (V c main_v14) (V c main_v15) (V c main_v17) (V c main_v16) (V c main_v18) (i 0)

/-- The printed index maps over the 100 points: the two gathered tables and the result move one block of rows per
    point, the three small operands stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 100 := lt_of_lt_of_eq t.isLt N_1

/-- Row `p` of block `t`, as a row of the whole arrays. -/
def row (t : Fin cfg1.N) (p : Fin 6000) : Fin 600000 := ⟨t.val * 6000 + p.val, by have := t_lt t; omega⟩

/-- Block `t` of the first gathered table holds its rows `6000·t + p`. -/
theorem blk0 (c : Dev nD) (t : Fin cfg1.N) (p : Fin 6000) (j : Fin 64) :
    iblk1 V c 0 t (ix2 p j) = V c main_v14 (ix2 (row t p) j) := by
  obtain ⟨e0, e1, -⟩ := idx_facts t
  show V c main_v14 (((cfg1.win 0).blk t).view.emb (ix2 p j)) = _
  refine congrArg _ (funext fun a => Fin.ext ?_)
  match a with
  | ⟨0, _⟩ => show win1_0.index t (0 : Fin 2) * 6000 + 1 * p.val = t.val * 6000 + p.val; omega
  | ⟨1, _⟩ => show win1_0.index t (1 : Fin 2) * 64 + 1 * j.val = j.val; omega

/-- Block `t` of the second gathered table holds its rows `6000·t + p`. -/
theorem blk1 (c : Dev nD) (t : Fin cfg1.N) (p : Fin 6000) (j : Fin 64) :
    iblk1 V c 1 t (ix2 p j) = V c main_v15 (ix2 (row t p) j) := by
  obtain ⟨-, -, e0, e1, -⟩ := idx_facts t
  show V c main_v15 (((cfg1.win 1).blk t).view.emb (ix2 p j)) = _
  refine congrArg _ (funext fun a => Fin.ext ?_)
  match a with
  | ⟨0, _⟩ => show win1_1.index t (0 : Fin 2) * 6000 + 1 * p.val = t.val * 6000 + p.val; omega
  | ⟨1, _⟩ => show win1_1.index t (1 : Fin 2) * 64 + 1 * j.val = j.val; omega

/-- The bias row, the weight column and the bias word are read whole at every point. -/
theorem blk2 (c : Dev nD) (t : Fin cfg1.N) (u : Fin 1) (j : Fin 64) : iblk1 V c 2 t (ix2 u j) = V c main_v17 (ix2 0 j) := by
  obtain ⟨-, -, -, -, e0, e1, -⟩ := idx_facts t
  show V c main_v17 (((cfg1.win 2).blk t).view.emb (ix2 u j)) = _
  refine congrArg _ (funext fun a => Fin.ext ?_)
  match a with
  | ⟨0, _⟩ => show win1_2.index t (0 : Fin 2) * 1 + 1 * u.val = 0; omega
  | ⟨1, _⟩ => show win1_2.index t (1 : Fin 2) * 64 + 1 * j.val = j.val; omega

theorem blk3 (c : Dev nD) (t : Fin cfg1.N) (j : Fin 64) (q : Fin 1) : iblk1 V c 3 t (ix2 j q) = V c main_v16 (ix2 j 0) := by
  obtain ⟨-, -, -, -, -, -, e0, e1, -⟩ := idx_facts t
  show V c main_v16 (((cfg1.win 3).blk t).view.emb (ix2 j q)) = _
  refine congrArg _ (funext fun a => Fin.ext ?_)
  match a with
  | ⟨0, _⟩ => show win1_3.index t (0 : Fin 2) * 64 + 1 * j.val = j.val; omega
  | ⟨1, _⟩ => show win1_3.index t (1 : Fin 2) * 1 + 1 * q.val = 0; omega

theorem blk4 (c : Dev nD) (t : Fin cfg1.N) (u q : Fin 1) : iblk1 V c 4 t (ix2 u q) = V c main_v18 (ix2 0 0) := by
  obtain ⟨-, -, -, -, -, -, -, -, e0, e1, -⟩ := idx_facts t
  show V c main_v18 (((cfg1.win 4).blk t).view.emb (ix2 u q)) = _
  refine congrArg _ (funext fun a => Fin.ext ?_)
  match a with
  | ⟨0, _⟩ => show win1_4.index t (0 : Fin 2) * 1 + 1 * u.val = 0; omega
  | ⟨1, _⟩ => show win1_4.index t (1 : Fin 2) * 1 + 1 * q.val = 0; omega

/-- WHAT POINT `t` WRITES BACK is block `t` of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S6000x64) hz, View.ld_unit_zero (S := S1x64) hz, View.ld_unit_zero (S := S64x1) hz,
    View.ld_unit_zero (S := S1x1) hz]
  obtain ⟨-, -, -, -, -, -, -, -, -, -, e0, e1⟩ := idx_facts t
  funext y
  obtain ⟨p, q, rfl⟩ : ∃ (p : Fin 6000) (q : Fin 1), y = ix2 p q := ⟨y 0, y 1, eq_ix2 y⟩
  refine (pay_apply _ _ _ _ _ p q).trans ?_
  show _ = combine (V c main_v14) (V c main_v15) (V c main_v17) (V c main_v16) (V c main_v18)
    ((((cfg1.win 5).blk t).view.emb (ix2 p q)) 0)
  have hrow : (((cfg1.win 5).blk t).view.emb (ix2 p q)) 0 = row t p :=
    Fin.ext (by show win1_5.index t (0 : Fin 2) * 6000 + 1 * p.val = t.val * 6000 + p.val; omega)
  rw [hrow]
  unfold combine
  have hq : q = 0 := Subsingleton.elim _ _
  subst hq
  simp only [blk0, blk1, blk2, blk3, blk4]

/-- An index of the result is in point `t`'s block iff each coordinate is in the block's range on its axis. -/
theorem mem_blk (t : Fin cfg1.N) (i : S600000x1.Idx) :
    i ∈ ((cfg1.win 5).blk t).view.set ↔ ∀ a : Fin 2, win1_5.index t a * S6000x1.size a ≤ (i a).val
      ∧ (i a).val < win1_5.index t a * S6000x1.size a + S6000x1.size a := by
  show i ∈ ((View.whole main_v19).slice (win1_5.rect t)).set ↔ _
  rw [View.set_slice_whole, Rect.mem_set_unit]
  exact Iff.rfl

/-- The 100 blocks tile the result: row `e` is in block `e / 6000`. -/
theorem cover (i : S600000x1.Idx) :
    ∃ t : Fin cfg1.N, (cfg1.win 5).flush t = true ∧ i ∈ ((cfg1.win 5).blk t).view.set := by
  have hi0 : (i 0).val < 600000 := (i 0).isLt
  have hi1 : (i 1).val < 1 := (i 1).isLt
  have hN : cfg1.N = 100 := N_1
  let t : Fin cfg1.N := ⟨(i 0).val / 6000, by rw [hN]; omega⟩
  obtain ⟨-, -, -, -, -, -, -, -, -, -, e0, e1⟩ := idx_facts t
  have ht : t.val = (i 0).val / 6000 := rfl
  refine ⟨t, flush1_5 t, ?_⟩
  rw [mem_blk]
  intro a
  match a with
  | ⟨0, _⟩ => show win1_5.index t (0 : Fin 2) * 6000 ≤ (i 0).val ∧ (i 0).val < win1_5.index t (0 : Fin 2) * 6000 + 6000; omega
  | ⟨1, _⟩ => show win1_5.index t (1 : Fin 2) * 1 ≤ (i 1).val ∧ (i 1).val < win1_5.index t (1 : Fin 2) * 1 + 1; omega

/-- THE RESULT ARRAY after the region: `G` of the arrays the region found. -/
theorem final (c : Dev nD) : (dat1 V c).arrAt 5 cfg1.N = G V c :=
  (dat1 V c).arrAt_eq_of_cover 5 (G V c) (fun t _ => flushed_eq V c t) (cover)

end Cert.KernelIdeal.EdgeCombine

end
-- ==== Proof.HostGlue.lean ====
/-
  The arrays the two calls are given, as the host operations around them leave them.

  Before the first call the host narrows the features and the two 128×128 weight arrays (the identity on extended
  reals), cuts the 256×64 attention array into its upper and lower 128 rows and narrows each, and recasts the two
  128-vectors of biases as 1×128 rows. Between the calls it cuts the edge array into its two columns, recasts each as a
  vector, and gathers the rows of the first call's two results at them; it narrows the 64×1 weight column and recasts
  the 64-vector and the 1-vector of biases as a row and as a single word. No host operation and no call writes an
  argument, so an argument read at any boundary is the launch memory's.
-/
import proofs.«423351_j27590869910157_3_alg».proof.Proof.Gen.KernelIdeal.Frame
import Idealize.ShloMosaic.Lib.StableHlo.Run
import Idealize.ShloMosaic.PureOps.Ideal

set_option maxRecDepth 16384

noncomputable section

namespace Cert.KernelIdeal.Glue

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The arguments, at the first call's exit -/

theorem W2_arg1 (c : Dev nD) : W2 m ρ c (Proc.devRef .tc main_arg1) = (m ((c : Thread nD τ).loc main_arg1)) :=
  (W2_of_ne m ρ c main_arg1 (by decide)).trans (by
    show StableHlo.after hostOps0 (W0 m ρ c) (Proc.devRef .tc main_arg1) = _
    after_results <;> rfl)
theorem W2_arg7 (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results <;> rfl)
theorem W2_arg8 (c : Dev nD) : W2 m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    after_results <;> rfl)
theorem W2_arg9 (c : Dev nD) : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results <;> rfl)

/-! ## What the first call is given -/

theorem V1_v0 (c : Dev nD) : V1 m ρ c main_v0 = truncf (F := Ideal) (s := S50000x128) (φ := .f32) .bf16 (m ((c : Thread nD τ).loc main_arg0)) bitsLt_bf16_f32 := by
  show StableHlo.after hostOps0 (W0 m ρ c) (Proc.devRef .tc main_v0) = _
  after_results <;> rfl
theorem V1_v1 (c : Dev nD) : V1 m ρ c main_v1 = truncf (F := Ideal) (s := S128x128) (φ := .f32) .bf16 (m ((c : Thread nD τ).loc main_arg2)) bitsLt_bf16_f32 := by
  show StableHlo.after hostOps0 (W0 m ρ c) (Proc.devRef .tc main_v1) = _
  after_results <;> rfl
theorem V1_v2 (c : Dev nD) : V1 m ρ c main_v2 = truncf (F := Ideal) (s := S128x128) (φ := .f32) .bf16 (m ((c : Thread nD τ).loc main_arg4)) bitsLt_bf16_f32 := by
  show StableHlo.after hostOps0 (W0 m ρ c) (Proc.devRef .tc main_v2) = _
  after_results <;> rfl
theorem V1_v4 (c : Dev nD) : V1 m ρ c main_v4
    = truncf (F := Ideal) (s := S128x64) (φ := .f32) .bf16 (extractStridedSlice S128x64 ![0, 0] (m ((c : Thread nD τ).loc main_arg6)) slices_S256x64_S128x64_0_0) bitsLt_bf16_f32 := by
  show StableHlo.after hostOps0 (W0 m ρ c) (Proc.devRef .tc main_v4) = _
  after_results <;> rfl
theorem V1_v6 (c : Dev nD) : V1 m ρ c main_v6
    = truncf (F := Ideal) (s := S128x64) (φ := .f32) .bf16 (extractStridedSlice S128x64 ![128, 0] (m ((c : Thread nD τ).loc main_arg6)) slices_S256x64_S128x64_128_0) bitsLt_bf16_f32 := by
  show StableHlo.after hostOps0 (W0 m ρ c) (Proc.devRef .tc main_v6) = _
  after_results <;> rfl
theorem V1_v7 (c : Dev nD) : V1 m ρ c main_v7 = shapeCast _ (m ((c : Thread nD τ).loc main_arg3)) shapeCasts_S128_S1x128 := by
  show StableHlo.after hostOps0 (W0 m ρ c) (Proc.devRef .tc main_v7) = _
  after_results <;> rfl
theorem V1_v8 (c : Dev nD) : V1 m ρ c main_v8 = shapeCast _ (m ((c : Thread nD τ).loc main_arg5)) shapeCasts_S128_S1x128 := by
  show StableHlo.after hostOps0 (W0 m ρ c) (Proc.devRef .tc main_v8) = _
  after_results <;> rfl

/-! ## What the second call is given -/

theorem V6_v14 (c : Dev nD) : V6 m ρ c main_v14
    = Host.gather gather_S50000x64_S600000x1_S600000x64_1_0_n_n_0_1_164 (W2 m ρ c (Proc.devRef .tc main_v9_0))
        (broadcastInDim S600000x1 ![0] bcast_S600000_S600000x1_0
          (shapeCast _ (extractStridedSlice S600000x1 ![0, 0] (m ((c : Thread nD τ).loc main_arg1)) slices_S600000x2_S600000x1_0_0)
            shapeCasts_S600000x1_S600000)) := by
  rw [← W2_arg1 m ρ c]
  show StableHlo.after hostOps1_3 (StableHlo.after hostOps1_2 (StableHlo.after hostOps1_1 (StableHlo.after hostOps1 (W2 m ρ c)))) (Proc.devRef .tc main_v14) = _
  after_results <;> rfl
theorem V6_v15 (c : Dev nD) : V6 m ρ c main_v15
    = Host.gather gather_S50000x64_S600000x1_S600000x64_1_0_n_n_0_1_164 (W2 m ρ c (Proc.devRef .tc main_v9_1))
        (broadcastInDim S600000x1 ![0] bcast_S600000_S600000x1_0
          (shapeCast _ (extractStridedSlice S600000x1 ![0, 1] (m ((c : Thread nD τ).loc main_arg1)) slices_S600000x2_S600000x1_0_1)
            shapeCasts_S600000x1_S600000)) := by
  rw [← W2_arg1 m ρ c]
  show StableHlo.after hostOps1_3 (StableHlo.after hostOps1_2 (StableHlo.after hostOps1_1 (StableHlo.after hostOps1 (W2 m ρ c)))) (Proc.devRef .tc main_v15) = _
  after_results <;> rfl
theorem V6_v16 (c : Dev nD) : V6 m ρ c main_v16 = truncf (F := Ideal) (s := S64x1) (φ := .f32) .bf16 (m ((c : Thread nD τ).loc main_arg8)) bitsLt_bf16_f32 := by
  rw [← W2_arg8 m ρ c]
  show StableHlo.after hostOps1_3 (StableHlo.after hostOps1_2 (StableHlo.after hostOps1_1 (StableHlo.after hostOps1 (W2 m ρ c)))) (Proc.devRef .tc main_v16) = _
  after_results <;> rfl
theorem V6_v17 (c : Dev nD) : V6 m ρ c main_v17 = shapeCast _ (m ((c : Thread nD τ).loc main_arg7)) shapeCasts_S64_S1x64 := by
  rw [← W2_arg7 m ρ c]
  show StableHlo.after hostOps1_3 (StableHlo.after hostOps1_2 (StableHlo.after hostOps1_1 (StableHlo.after hostOps1 (W2 m ρ c)))) (Proc.devRef .tc main_v17) = _
  after_results <;> rfl
theorem V6_v18 (c : Dev nD) : V6 m ρ c main_v18 = shapeCast _ (m ((c : Thread nD τ).loc main_arg9)) shapeCasts_S1_S1x1 := by
  rw [← W2_arg9 m ρ c]
  show StableHlo.after hostOps1_3 (StableHlo.after hostOps1_2 (StableHlo.after hostOps1_1 (StableHlo.after hostOps1 (W2 m ρ c)))) (Proc.devRef .tc main_v18) = _
  after_results <;> rfl

end Cert.KernelIdeal.Glue

end
-- ==== Proof.LibRowGather.lean ====
/-
  A gather of whole rows: the operand is an N×C array, the start indices an R×1 array of words, and row `e` of the
  R×C result is the operand's row named by word `e`, read signed and clamped into `[0, N − 1]` (every start index of a
  gather is clamped so that the slice fits). This is what taking rows of a table at an integer vector lowers to.
-/
import Idealize.ShloMosaic.Lib.ValueIdx

noncomputable section

namespace Cert.Lib.RowGather

open Idealize.ShloMosaic Idealize.ShloMosaic.ValueIdx

variable {α : Type}

/-- The dimension numbers of a row gather: the result's axis 1 is the offset axis, the operand's axis 0 is collapsed
    and is the one the start index names, the index vector lies along the start indices' axis 1, slices are `1 × C`. -/
abbrev rowDims (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, j)`: column `j` of the operand's row `idx[e, 0]`, the word read signed and clamped. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N C R wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowDims N C R wf).start (ix2 e j) idx 0 + (rowDims N C R wf).batchCoord (ix2 e j) 0
        + (rowDims N C R wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N C R wf).startIndexMap from List.mem_singleton.mpr rfl)]
    have hsi : (rowDims N C R wf).siIdx (ix2 e j) ⟨List.idxOf (0 : Fin 2) (rowDims N C R wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N C R wf).start (ix2 e j) idx 1 + (rowDims N C R wf).batchCoord (ix2 e j) 1
        + (rowDims N C R wf).offCoord (ix2 e j) 1 = j.val
    rw [GatherDims.batchCoord_eq_zero _ _ _ List.not_mem_nil]
    have hs : (rowDims N C R wf).start (ix2 e j) idx 1 = 0 := by
      unfold GatherDims.start
      rw [dif_neg (show ¬ (1 : Fin 2) ∈ ([0] : List (Fin 2)) by decide)]
    have ho : (rowDims N C R wf).offCoord (ix2 e j) 1 = j.val := by
      unfold GatherDims.offCoord
      rw [dif_pos ((GatherDims.mem_sKept _ _).2
        ⟨show ¬ (1 : Fin 2) ∈ ([0] : List (Fin 2)) by decide, List.not_mem_nil⟩)]
      rfl
    rw [hs, ho]
    omega

end Cert.Lib.RowGather

end
-- ==== Proof.KernelValue.lean ====
/-
  The kernel program's result, entry by entry, is the edge score of the specification.

  The first call's two results are the node tables: the host narrows its operands (the identity on extended reals),
  hands the upper and the lower 128 rows of the attention array to the first and to the second table, and the biases
  as rows. The second call is given, for each edge, the rows of the two tables that the gathers take at the edge's two
  words — a gather clamps its start index into `[0, 49999]`, which is the node `nodeOf` names — together with the
  last layer's bias row, weight column and bias word. Its combine of those is the specification's score.
-/
import proofs.«423351_j27590869910157_3_alg».proof.Proof.NodeProj
import proofs.«423351_j27590869910157_3_alg».proof.Proof.EdgeCombine
import proofs.«423351_j27590869910157_3_alg».proof.Proof.HostGlue
import proofs.«423351_j27590869910157_3_alg».proof.Proof.LibRowGather
import proofs.«423351_j27590869910157_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.KernelValue

open Cert.KernelIdeal Cert.KernelIdeal.Gen Cert.EdgeAttn Cert.Lib
open Idealize.ShloMosaic Idealize.ShloMosaic.TcCoe Idealize.ShloMosaic.ValueIdx Idealize.SL.Sem

variable (m : (ℓ : Loc nD τ sig) → Buf (Elt Ideal) ℓ) (ρ : Dev nD → PrngReg)

/-! ## The first call's operands, entry by entry -/

theorem v0_at (c : Dev nD) (n : Fin 50000) (d : Fin 128) : V1 m ρ c main_v0 (ix2 n d) = (m ((c : Thread nD τ).loc main_arg0)) (ix2 n d) := by
  rw [Glue.V1_v0]; rfl
theorem v1_at (c : Dev nD) (d k : Fin 128) : V1 m ρ c main_v1 (ix2 d k) = (m ((c : Thread nD τ).loc main_arg2)) (ix2 d k) := by
  rw [Glue.V1_v1]; rfl
theorem v2_at (c : Dev nD) (d k : Fin 128) : V1 m ρ c main_v2 (ix2 d k) = (m ((c : Thread nD τ).loc main_arg4)) (ix2 d k) := by
  rw [Glue.V1_v2]; rfl
theorem v7_at (c : Dev nD) (k : Fin 128) : V1 m ρ c main_v7 (ix2 0 k) = (m ((c : Thread nD τ).loc main_arg3)) (ix1 k) := by
  rw [Glue.V1_v7]; exact shapeCast_a_1a_apply _ _ 0 k
theorem v8_at (c : Dev nD) (k : Fin 128) : V1 m ρ c main_v8 (ix2 0 k) = (m ((c : Thread nD τ).loc main_arg5)) (ix1 k) := by
  rw [Glue.V1_v8]; exact shapeCast_a_1a_apply _ _ 0 k
theorem v4_at (c : Dev nD) (k : Fin 128) (j : Fin 64) : V1 m ρ c main_v4 (ix2 k j) = (m ((c : Thread nD τ).loc main_arg6)) (ix2 (top k) j) := by
  rw [Glue.V1_v4]
  exact slice2_axis0_apply 0 _ slices_S256x64_S128x64_0_0 k j (top k) (Nat.zero_add _).symm
theorem v6_at (c : Dev nD) (k : Fin 128) (j : Fin 64) : V1 m ρ c main_v6 (ix2 k j) = (m ((c : Thread nD τ).loc main_arg6)) (ix2 (bot k) j) := by
  rw [Glue.V1_v6]
  exact slice2_axis0_apply 128 _ slices_S256x64_S128x64_128_0 k j (bot k) rfl

/-! ## The two node tables -/

/-- The first call's operands as arrays over the launch memory: the narrowings are the identity, a bias row reads the
    bias vector at its column, an attention block reads the attention array at its half's row. -/
theorem x_fn (c : Dev nD) : (V1 m ρ c main_v0 : Arr 50000 128) = (m ((c : Thread nD τ).loc main_arg0)) := by
  rw [Glue.V1_v0]; rfl
theorem wnb_fn (c : Dev nD) : (V1 m ρ c main_v1 : Arr 128 128) = (m ((c : Thread nD τ).loc main_arg2)) := by
  rw [Glue.V1_v1]; rfl
theorem wself_fn (c : Dev nD) : (V1 m ρ c main_v2 : Arr 128 128) = (m ((c : Thread nD τ).loc main_arg4)) := by
  rw [Glue.V1_v2]; rfl
theorem bnb_fn (c : Dev nD) : (V1 m ρ c main_v7 : Arr 1 128) = fun i => (m ((c : Thread nD τ).loc main_arg3)) (ix1 (i 1)) := by
  funext i
  obtain ⟨u, k, rfl⟩ : ∃ (u : Fin 1) (k : Fin 128), i = ix2 u k := ⟨i 0, i 1, eq_ix2 i⟩
  have hu : u = 0 := Subsingleton.elim _ _
  subst hu
  exact v7_at m ρ c k
theorem bself_fn (c : Dev nD) : (V1 m ρ c main_v8 : Arr 1 128) = fun i => (m ((c : Thread nD τ).loc main_arg5)) (ix1 (i 1)) := by
  funext i
  obtain ⟨u, k, rfl⟩ : ∃ (u : Fin 1) (k : Fin 128), i = ix2 u k := ⟨i 0, i 1, eq_ix2 i⟩
  have hu : u = 0 := Subsingleton.elim _ _
  subst hu
  exact v8_at m ρ c k
theorem atop_fn (c : Dev nD) : (V1 m ρ c main_v4 : Arr 128 64) = fun i => (m ((c : Thread nD τ).loc main_arg6)) (ix2 (top (i 0)) (i 1)) := by
  funext i
  obtain ⟨k, j, rfl⟩ : ∃ (k : Fin 128) (j : Fin 64), i = ix2 k j := ⟨i 0, i 1, eq_ix2 i⟩
  exact v4_at m ρ c k j
theorem abot_fn (c : Dev nD) : (V1 m ρ c main_v6 : Arr 128 64) = fun i => (m ((c : Thread nD τ).loc main_arg6)) (ix2 (bot (i 0)) (i 1)) := by
  funext i
  obtain ⟨k, j, rfl⟩ : ∃ (k : Fin 128) (j : Fin 64), i = ix2 k j := ⟨i 0, i 1, eq_ix2 i⟩
  exact v6_at m ρ c k j

theorem table7 (c : Dev nD) (n : Fin 50000) (j : Fin 64) :
    W2 m ρ c (Proc.devRef .tc main_v9_0) (ix2 n j) = nodeTable (m ((c : Thread nD τ).loc main_arg0)) (m ((c : Thread nD τ).loc main_arg2)) (m ((c : Thread nD τ).loc main_arg3)) (m ((c : Thread nD τ).loc main_arg6)) top n j := by
  have h : W2 m ρ c (Proc.devRef .tc main_v9_0) = NodeProj.G7 (V1 m ρ) c :=
    (W2_arr m ρ c 7).trans (NodeProj.final7 (V1 m ρ) c)
  rw [h]
  show NodeProj.table (V1 m ρ c main_v0) (V1 m ρ c main_v1) (V1 m ρ c main_v7) (V1 m ρ c main_v4) n j = _
  rw [x_fn, wnb_fn, bnb_fn, atop_fn]
  rfl

theorem table8 (c : Dev nD) (n : Fin 50000) (j : Fin 64) :
    W2 m ρ c (Proc.devRef .tc main_v9_1) (ix2 n j) = nodeTable (m ((c : Thread nD τ).loc main_arg0)) (m ((c : Thread nD τ).loc main_arg4)) (m ((c : Thread nD τ).loc main_arg5)) (m ((c : Thread nD τ).loc main_arg6)) bot n j := by
  have h : W2 m ρ c (Proc.devRef .tc main_v9_1) = NodeProj.G8 (V1 m ρ) c :=
    (W2_arr m ρ c 8).trans (NodeProj.final8 (V1 m ρ) c)
  rw [h]
  show NodeProj.table (V1 m ρ c main_v0) (V1 m ρ c main_v2) (V1 m ρ c main_v8) (V1 m ρ c main_v6) n j = _
  rw [x_fn, wself_fn, bself_fn, abot_fn]
  rfl

/-! ## The gathers' start indices: the edge's two words -/

theorem start0 (c : Dev nD) (e : Fin 600000) (u : Fin 1) :
    (broadcastInDim S600000x1 ![0] bcast_S600000_S600000x1_0
      (shapeCast S600000 (extractStridedSlice S600000x1 ![0, 0] (m ((c : Thread nD τ).loc main_arg1)) slices_S600000x2_S600000x1_0_0)
        shapeCasts_S600000x1_S600000)) (ix2 e u) = (m ((c : Thread nD τ).loc main_arg1)) (ix2 e 0) := by
  refine (broadcastInDim_apply _ bcast_S600000_S600000x1_0 _ (ix2 e u) (ix1 e) (fun a => by
    match a with
    | ⟨0, _⟩ => show e.val = if (600000 : Nat) = 1 then 0 else e.val; rw [if_neg (by decide)])).trans ?_
  refine (shapeCast_apply _ shapeCasts_S600000x1_S600000 (ix1 e) (ix2 e 0) (by
    rw [Shape.rowMajor_val_two, Shape.rowMajor_val_one]; show e.val * 1 + 0 = e.val; omega)).trans ?_
  exact slice2_axis1_apply 0 _ slices_S600000x2_S600000x1_0_0 e 0 0 rfl

theorem start1 (c : Dev nD) (e : Fin 600000) (u : Fin 1) :
    (broadcastInDim S600000x1 ![0] bcast_S600000_S600000x1_0
      (shapeCast S600000 (extractStridedSlice S600000x1 ![0, 1] (m ((c : Thread nD τ).loc main_arg1)) slices_S600000x2_S600000x1_0_1)
        shapeCasts_S600000x1_S600000)) (ix2 e u) = (m ((c : Thread nD τ).loc main_arg1)) (ix2 e 1) := by
  refine (broadcastInDim_apply _ bcast_S600000_S600000x1_0 _ (ix2 e u) (ix1 e) (fun a => by
    match a with
    | ⟨0, _⟩ => show e.val = if (600000 : Nat) = 1 then 0 else e.val; rw [if_neg (by decide)])).trans ?_
  refine (shapeCast_apply _ shapeCasts_S600000x1_S600000 (ix1 e) (ix2 e 0) (by
    rw [Shape.rowMajor_val_two, Shape.rowMajor_val_one]; show e.val * 1 + 0 = e.val; omega)).trans ?_
  exact slice2_axis1_apply 1 _ slices_S600000x2_S600000x1_0_1 e 0 1 rfl

/-! ## The second call's operands, entry by entry -/

theorem g1_at (c : Dev nD) (e : Fin 600000) (j : Fin 64) :
    V6 m ρ c main_v14 (ix2 e j)
      = nodeTable (m ((c : Thread nD τ).loc main_arg0)) (m ((c : Thread nD τ).loc main_arg2)) (m ((c : Thread nD τ).loc main_arg3)) (m ((c : Thread nD τ).loc main_arg6)) top (nodeOf ((m ((c : Thread nD τ).loc main_arg1)) (ix2 e 0))) j := by
  rw [Glue.V6_v14]
  show Host.gather (RowGather.rowDims 50000 64 600000 _) _ _ (ix2 e j) = _
  rw [RowGather.gather_rows_apply (by decide)]
  refine (table7 m ρ c _ j).trans ?_
  exact congrArg (fun w => nodeTable (m ((c : Thread nD τ).loc main_arg0)) (m ((c : Thread nD τ).loc main_arg2)) (m ((c : Thread nD τ).loc main_arg3)) (m ((c : Thread nD τ).loc main_arg6)) top (nodeOf w) j) (start0 m c e 0)

theorem g2_at (c : Dev nD) (e : Fin 600000) (j : Fin 64) :
    V6 m ρ c main_v15 (ix2 e j)
      = nodeTable (m ((c : Thread nD τ).loc main_arg0)) (m ((c : Thread nD τ).loc main_arg4)) (m ((c : Thread nD τ).loc main_arg5)) (m ((c : Thread nD τ).loc main_arg6)) bot (nodeOf ((m ((c : Thread nD τ).loc main_arg1)) (ix2 e 1))) j := by
  rw [Glue.V6_v15]
  show Host.gather (RowGather.rowDims 50000 64 600000 _) _ _ (ix2 e j) = _
  rw [RowGather.gather_rows_apply (by decide)]
  refine (table8 m ρ c _ j).trans ?_
  exact congrArg (fun w => nodeTable (m ((c : Thread nD τ).loc main_arg0)) (m ((c : Thread nD τ).loc main_arg4)) (m ((c : Thread nD τ).loc main_arg5)) (m ((c : Thread nD τ).loc main_arg6)) bot (nodeOf w) j) (start1 m c e 0)

theorem b1_at (c : Dev nD) (j : Fin 64) : V6 m ρ c main_v17 (ix2 0 j) = (m ((c : Thread nD τ).loc main_arg7)) (ix1 j) := by
  rw [Glue.V6_v17]; exact shapeCast_a_1a_apply _ _ 0 j
theorem w2_at (c : Dev nD) (j : Fin 64) : V6 m ρ c main_v16 (ix2 j 0) = (m ((c : Thread nD τ).loc main_arg8)) (ix2 j 0) := by
  rw [Glue.V6_v16]; rfl
theorem b2_at (c : Dev nD) : V6 m ρ c main_v18 (ix2 0 0) = (m ((c : Thread nD τ).loc main_arg9)) (ix1 0) := by
  rw [Glue.V6_v18]; exact shapeCast_a_1a_apply _ _ 0 0

/-! ## The result -/

/-- The second call's operands as arrays over the launch memory. -/
theorem g1_fn (c : Dev nD) : (V6 m ρ c main_v14 : Arr 600000 64) = fun i =>
    nodeTable (m ((c : Thread nD τ).loc main_arg0)) (m ((c : Thread nD τ).loc main_arg2)) (m ((c : Thread nD τ).loc main_arg3)) (m ((c : Thread nD τ).loc main_arg6)) top (nodeOf ((m ((c : Thread nD τ).loc main_arg1)) (ix2 (i 0) 0))) (i 1) := by
  funext i
  obtain ⟨e, j, rfl⟩ : ∃ (e : Fin 600000) (j : Fin 64), i = ix2 e j := ⟨i 0, i 1, eq_ix2 i⟩
  exact g1_at m ρ c e j
theorem g2_fn (c : Dev nD) : (V6 m ρ c main_v15 : Arr 600000 64) = fun i =>
    nodeTable (m ((c : Thread nD τ).loc main_arg0)) (m ((c : Thread nD τ).loc main_arg4)) (m ((c : Thread nD τ).loc main_arg5)) (m ((c : Thread nD τ).loc main_arg6)) bot (nodeOf ((m ((c : Thread nD τ).loc main_arg1)) (ix2 (i 0) 1))) (i 1) := by
  funext i
  obtain ⟨e, j, rfl⟩ : ∃ (e : Fin 600000) (j : Fin 64), i = ix2 e j := ⟨i 0, i 1, eq_ix2 i⟩
  exact g2_at m ρ c e j
theorem b1_fn (c : Dev nD) : (V6 m ρ c main_v17 : Arr 1 64) = fun i => (m ((c : Thread nD τ).loc main_arg7)) (ix1 (i 1)) := by
  funext i
  obtain ⟨u, j, rfl⟩ : ∃ (u : Fin 1) (j : Fin 64), i = ix2 u j := ⟨i 0, i 1, eq_ix2 i⟩
  have hu : u = 0 := Subsingleton.elim _ _
  subst hu
  exact b1_at m ρ c j
theorem w2_fn (c : Dev nD) : (V6 m ρ c main_v16 : Arr 64 1) = (m ((c : Thread nD τ).loc main_arg8)) := by
  rw [Glue.V6_v16]; rfl
theorem b2_fn (c : Dev nD) : (V6 m ρ c main_v18 : Arr 1 1) = fun _ => (m ((c : Thread nD τ).loc main_arg9)) (ix1 0) := by
  funext i
  obtain ⟨u, v, rfl⟩ : ∃ (u v : Fin 1), i = ix2 u v := ⟨i 0, i 1, eq_ix2 i⟩
  have hu : u = 0 := Subsingleton.elim _ _
  have hv : v = 0 := Subsingleton.elim _ _
  subst hu hv
  exact b2_at m ρ c

/-- THE KERNEL PROGRAM'S RESULT ARRAY at the last boundary: the score of every edge. -/
theorem result_eq (c : Dev nD) :
    W7 m ρ c (Proc.devRef .tc main_v19) = fun (i : S600000x1.Idx) =>
      edgeScore (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
        (nodeOf ((m ((c : Thread nD τ).loc main_arg1)) (ix2 (i 0) 0))) (nodeOf ((m ((c : Thread nD τ).loc main_arg1)) (ix2 (i 0) 1))) := by
  have h : W7 m ρ c (Proc.devRef .tc main_v19) = EdgeCombine.G (V6 m ρ) c :=
    (W7_arr m ρ c 5).trans (EdgeCombine.final (V6 m ρ) c)
  rw [h]
  funext i
  show EdgeCombine.combine (V6 m ρ c main_v14) (V6 m ρ c main_v15) (V6 m ρ c main_v17) (V6 m ρ c main_v16)
    (V6 m ρ c main_v18) (i 0) = _
  rw [g1_fn, g2_fn, b1_fn, w2_fn, b2_fn]
  rfl

end Cert.KernelIdeal.KernelValue

end
-- ==== Proof.RefValue.lean ====
/-
  The reference's result, entry by entry, is the edge score of the specification.

  The reference takes, for each edge, the feature rows of its two endpoints: it first adds 50000 to an index word that
  reads negative and then gathers, the gather clamping the word into `[0, 49999]`. Under the precondition the word is
  non-negative, so nothing is added and the row is the one `nodeOf` names. The two gathered 128-vectors go through
  their dense layers (a host product is a sum over the contracted coordinate, the bias is broadcast along the rows,
  the maximum with the zero word), are joined along the columns into 256 values, and the product of that row with
  the 256×64 attention array is a sum over 256 coordinates: its first 128 terms read the first vector and the upper
  half of the array, its last 128 the second vector and the lower half (`sum_halves`). The rest is the same tree of
  operations as the specification's.
-/
import proofs.«423351_j27590869910157_3_alg».proof.Proof.Gen.ReferenceIdeal.Read
import proofs.«423351_j27590869910157_3_alg».proof.Proof.Spec
import proofs.«423351_j27590869910157_3_alg».proof.Proof.LibRowGather
import Idealize.ShloMosaic.Lib.Affine

set_option maxRecDepth 16384

noncomputable section

namespace Cert.ReferenceIdeal.RefValue

open Cert.ReferenceIdeal Cert.ReferenceIdeal.Gen Cert.ReferenceIdeal.Read Cert.EdgeAttn Cert.Lib
open Idealize.ShloMosaic Idealize.ShloMosaic.TcCoe Idealize.ShloMosaic.ValueIdx

/-- The contents of a float and of an integer argument array. -/
abbrev CF (S : Shape) := (⟨S, .f32⟩ : BufTy).Contents (Elt Ideal)
abbrev CI (S : Shape) := (⟨S, .i32⟩ : BufTy).Contents (Elt Ideal)

variable (x0 : CF S50000x128) (x1 : CI S600000x2) (x2 : CF S128x128) (x3 : CF S128) (x4 : CF S128x128) (x5 : CF S128)
  (x6 : CF S256x64) (x7 : CF S64) (x8 : CF S64x1) (x9 : CF S1)

/-- A word that reads non-negative does not test below zero. -/
theorem not_neg {w : BitVec 32} (h : 0 ≤ w.toInt) : IntOp.cmpi .slt w 0#32 = 0#1 :=
  eq_zero_of_ne_one fun hc => by
    have h1 := IntOp.cmpi_slt.1 hc
    have hz : (0#32 : BitVec 32).toInt = 0 := by decide
    omega

/-- The start index the first gather reads for edge `e` is the edge's first word itself. -/
theorem word0 (hpos : ∀ i, 0 ≤ (x1 i).toInt) (e : Fin 600000) (u : Fin 1) :
    val_main_v7 (F := Ideal) x1 (ix2 e u) = x1 (ix2 e 0) := by
  rw [val_main_v7_apply, val_main_v6_apply, val_main_v3_apply, val_main_v2_apply, val_main_c_apply, val_main_v1_apply,
    val_main_v0_apply]
  have hidx : idx_main_v0 (idx_main_v1 (idx_main_v7 (ix2 e u))) = ix2 e 0 := funext fun a => Fin.ext (by
    match a with
    | ⟨0, _⟩ => exact Nat.div_one _
    | ⟨1, _⟩ => rfl)
  rw [hidx, not_neg (hpos _), select_zero]

/-- The start index the second gather reads for edge `e` is the edge's second word itself. -/
theorem word1 (hpos : ∀ i, 0 ≤ (x1 i).toInt) (e : Fin 600000) (u : Fin 1) :
    val_main_v16 (F := Ideal) x1 (ix2 e u) = x1 (ix2 e 1) := by
  rw [val_main_v16_apply, val_main_v15_apply, val_main_v12_apply, val_main_v11_apply, val_main_c_1_apply,
    val_main_v10_apply, val_main_v9_apply]
  have hidx : idx_main_v9 (idx_main_v10 (idx_main_v16 (ix2 e u))) = ix2 e 1 := funext fun a => Fin.ext (by
    match a with
    | ⟨0, _⟩ => exact Nat.div_one _
    | ⟨1, _⟩ => rfl)
  rw [hidx, not_neg (hpos _), select_zero]

/-- The first gathered row of edge `e` is the feature row of its first endpoint. -/
theorem rows0 (hpos : ∀ i, 0 ≤ (x1 i).toInt) (e : Fin 600000) (d : Fin 128) :
    val_main_v8 (F := Ideal) x0 x1 (ix2 e d) = x0 (ix2 (nodeOf (x1 (ix2 e 0))) d) := by
  unfold val_main_v8
  show Host.gather (RowGather.rowDims 50000 128 600000 _) x0 (val_main_v7 (F := Ideal) x1) (ix2 e d) = _
  rw [RowGather.gather_rows_apply (by decide)]
  exact congrArg (fun w => x0 (ix2 (nodeOf w) d)) (word0 x1 hpos e 0)

/-- The second gathered row of edge `e` is the feature row of its second endpoint. -/
theorem rows1 (hpos : ∀ i, 0 ≤ (x1 i).toInt) (e : Fin 600000) (d : Fin 128) :
    val_main_v17 (F := Ideal) x0 x1 (ix2 e d) = x0 (ix2 (nodeOf (x1 (ix2 e 1))) d) := by
  unfold val_main_v17
  show Host.gather (RowGather.rowDims 50000 128 600000 _) x0 (val_main_v16 (F := Ideal) x1) (ix2 e d) = _
  rw [RowGather.gather_rows_apply (by decide)]
  exact congrArg (fun w => x0 (ix2 (nodeOf w) d)) (word1 x1 hpos e 0)

/-- The first dense layer at edge `e`: the hidden units of its first endpoint under the neighbour weights. -/
theorem hidden0 (hpos : ∀ i, 0 ≤ (x1 i).toInt) (e : Fin 600000) (k : Fin 128) :
    val_main_v22 (F := Ideal) x0 x1 x2 x3 (ix2 e k) = hidden x0 x2 x3 (nodeOf (x1 (ix2 e 0))) k := by
  rw [val_main_v22_apply, val_main_v21_apply, val_main_v18_apply, val_main_v20_apply, val_main_v19_apply,
    val_main_call0_v0_apply, val_main_call0_cst_apply]
  have hl : ∀ k', lidx_main_v18 (ix2 e k) k' = ix2 e k' := fun k' => funext fun a => Fin.ext (by
    match a with
    | ⟨0, _⟩ => rfl
    | ⟨1, _⟩ => rfl)
  have hr : ∀ k', ridx_main_v18 (ix2 e k) k' = ix2 k' k := fun k' => funext fun a => Fin.ext (by
    match a with
    | ⟨0, _⟩ => rfl
    | ⟨1, _⟩ => rfl)
  have hb : idx_main_v19 (idx_main_v20 (ix2 e k)) = ix1 k := funext fun a => Fin.ext (by
    match a with
    | ⟨0, _⟩ => rfl)
  simp only [hl, hr, hb, rows0 x0 x1 hpos]
  rfl

/-- The second dense layer at edge `e`: the hidden units of its second endpoint under the self weights. -/
theorem hidden1 (hpos : ∀ i, 0 ≤ (x1 i).toInt) (e : Fin 600000) (k : Fin 128) :
    val_main_v27 (F := Ideal) x0 x1 x4 x5 (ix2 e k) = hidden x0 x4 x5 (nodeOf (x1 (ix2 e 1))) k := by
  rw [val_main_v27_apply, val_main_v26_apply, val_main_v23_apply, val_main_v25_apply, val_main_v24_apply,
    val_main_call1_v0_apply, val_main_call1_cst_apply]
  have hl : ∀ k', lidx_main_v23 (ix2 e k) k' = ix2 e k' := fun k' => funext fun a => Fin.ext (by
    match a with
    | ⟨0, _⟩ => rfl
    | ⟨1, _⟩ => rfl)
  have hr : ∀ k', ridx_main_v23 (ix2 e k) k' = ix2 k' k := fun k' => funext fun a => Fin.ext (by
    match a with
    | ⟨0, _⟩ => rfl
    | ⟨1, _⟩ => rfl)
  have hb : idx_main_v24 (idx_main_v25 (ix2 e k)) = ix1 k := funext fun a => Fin.ext (by
    match a with
    | ⟨0, _⟩ => rfl)
  simp only [hl, hr, hb, rows1 x0 x1 hpos]
  rfl

/-- The joined row of edge `e`: its first 128 columns are the first layer's, its last 128 the second layer's. -/
theorem cat_top (e : Fin 600000) (k : Fin 128) :
    val_main_v28 (F := Ideal) x0 x1 x2 x3 x4 x5 (ix2 e (top k)) = val_main_v22 (F := Ideal) x0 x1 x2 x3 (ix2 e k) := by
  unfold val_main_v28
  exact concatenate_pair_apply_left (s₁ := S600000x128) (s₂ := S600000x128) 1 _ _ _ (ix2 e (top k)) rfl (ix2 e k) (fun b => by
    match b with
    | ⟨0, _⟩ => rfl
    | ⟨1, _⟩ => rfl)

theorem cat_bot (e : Fin 600000) (k : Fin 128) :
    val_main_v28 (F := Ideal) x0 x1 x2 x3 x4 x5 (ix2 e (bot k)) = val_main_v27 (F := Ideal) x0 x1 x4 x5 (ix2 e k) := by
  unfold val_main_v28
  exact concatenate_pair_apply_right (s₁ := S600000x128) (s₂ := S600000x128) 1 _ _ _ (ix2 e (bot k)) rfl rfl (ix2 e k) (fun b hb => by
    match b with
    | ⟨0, _⟩ => rfl
    | ⟨1, _⟩ => exact absurd rfl hb) (by show k.val + 128 = 128 + k.val; omega)

/-- The attention layer's product at edge `e`: the two endpoints' projections, through the upper and the lower
    half of the attention array. -/
theorem tables (hpos : ∀ i, 0 ≤ (x1 i).toInt) (e : Fin 600000) (j : Fin 64) :
    val_main_v29 (F := Ideal) x0 x1 x2 x3 x4 x5 x6 (ix2 e j)
      = nodeTable x0 x2 x3 x6 top (nodeOf (x1 (ix2 e 0))) j + nodeTable x0 x4 x5 x6 bot (nodeOf (x1 (ix2 e 1))) j := by
  rw [val_main_v29_apply]
  have hl : ∀ k, lidx_main_v29 (ix2 e j) k = ix2 e k := fun k => funext fun a => Fin.ext (by
    match a with
    | ⟨0, _⟩ => rfl
    | ⟨1, _⟩ => rfl)
  have hr : ∀ k, ridx_main_v29 (ix2 e j) k = ix2 k j := fun k => funext fun a => Fin.ext (by
    match a with
    | ⟨0, _⟩ => rfl
    | ⟨1, _⟩ => rfl)
  simp only [hl, hr]
  rw [sum_halves]
  simp only [cat_top, cat_bot, hidden0 x0 x1 x2 x3 hpos, hidden1 x0 x1 x4 x5 hpos]
  rfl

/-- THE REFERENCE'S RESULT at edge `e` is the specification's score of the edge's two endpoints. -/
theorem result_apply (hpos : ∀ i, 0 ≤ (x1 i).toInt) (e : Fin 600000) (q : Fin 1) :
    val_main_v37 (F := Ideal) x0 x1 x2 x3 x4 x5 x6 x7 x8 x9 (ix2 e q)
      = edgeScore x0 x2 x3 x4 x5 x6 x7 x8 x9 (nodeOf (x1 (ix2 e 0))) (nodeOf (x1 (ix2 e 1))) := by
  have hq : q = 0 := Subsingleton.elim _ _
  subst hq
  rw [val_main_v37_apply, val_main_v34_apply, val_main_v36_apply, val_main_v35_apply]
  have hl : ∀ k, lidx_main_v34 (ix2 e (0 : Fin 1)) k = ix2 e k := fun k => funext fun a => Fin.ext (by
    match a with
    | ⟨0, _⟩ => rfl
    | ⟨1, _⟩ => rfl)
  have hr : ∀ k, ridx_main_v34 (ix2 e (0 : Fin 1)) k = ix2 k 0 := fun k => funext fun a => Fin.ext (by
    match a with
    | ⟨0, _⟩ => rfl
    | ⟨1, _⟩ => rfl)
  have hb2 : idx_main_v35 (idx_main_v36 (ix2 e (0 : Fin 1))) = ix1 0 := funext fun a => Fin.ext (by
    match a with
    | ⟨0, _⟩ => rfl)
  have hb1 : ∀ k : Fin 64, idx_main_v30 (idx_main_v31 (ix2 e k)) = ix1 k := fun k => funext fun a => Fin.ext (by
    match a with
    | ⟨0, _⟩ => rfl)
  simp only [hl, hr, hb2, val_main_v33_apply, val_main_v32_apply, val_main_v31_apply, val_main_v30_apply,
    val_main_call2_v0_apply, val_main_call2_cst_apply, hb1, tables x0 x1 x2 x3 x4 x5 x6 hpos]
  rfl

end Cert.ReferenceIdeal.RefValue

end
-- ==== Proof.lean ====
/-
  A graph attention score per edge: for each of 600000 edges, the two endpoint nodes' 128 features go through a dense
  layer with a maximum against zero (the neighbour weights for the first endpoint, the self weights for the second),
  the two 128-vectors are joined and multiplied by a 256×64 array, a bias is added and the maximum with zero taken, and
  a last 64×1 product with a bias gives the score.

  The reference does this edge by edge. The kernel program hoists the node-dependent part: a first call computes, for
  every node, its hidden units times the upper half and times the lower half of the 256×64 array (two 50000×64
  tables); the host gathers the tables' rows at the edges' two index words; a second call adds the two gathered rows
  and the bias, takes the maximum with zero and applies the last layer. Over the extended reals the narrowings to
  bf16 are the identity and every product is an exact sum, so the two programs differ only in that the reference's sum
  over the 256 joined coordinates is the kernel's two sums over 128 — commutativity and associativity of addition,
  which hold at the infinities too: finiteness of the float inputs is never used.

  The index words: the reference adds 50000 to a word that reads negative before gathering, the kernel's gather does
  not; both clamp into `[0, 49999]`. Under the added precondition that every edge entry is non-negative nothing is
  added, and both read the node `nodeOf` of the word. That is the one place the precondition is used.

  The three frames are the generated ones (the reference's is its generated run with the result dropped); the
  idealization rewrote nothing, so `preserves` is `True`; `algebraic` puts the kernel program's run, read at its
  result (the launch run, the two calls' values, the host operations between them), beside the reference's generated
  run read stage by stage, both at the specification's `edgeScore`.
-/
import proofs.«423351_j27590869910157_3_alg».proof.Defs
import proofs.«423351_j27590869910157_3_alg».proof.Proof.Gen.Kernel
import proofs.«423351_j27590869910157_3_alg».proof.Proof.Gen.Kernel.Skeleton
import proofs.«423351_j27590869910157_3_alg».proof.Proof.Gen.Kernel.Launch
import proofs.«423351_j27590869910157_3_alg».proof.Proof.Gen.Kernel.Points
import proofs.«423351_j27590869910157_3_alg».proof.Proof.Gen.Kernel.Frame
import proofs.«423351_j27590869910157_3_alg».proof.Proof.Gen.KernelIdeal
import proofs.«423351_j27590869910157_3_alg».proof.Proof.Gen.KernelIdeal.Skeleton
import proofs.«423351_j27590869910157_3_alg».proof.Proof.Gen.KernelIdeal.Launch
import proofs.«423351_j27590869910157_3_alg».proof.Proof.Gen.KernelIdeal.Points
import proofs.«423351_j27590869910157_3_alg».proof.Proof.Gen.KernelIdeal.Frame
import proofs.«423351_j27590869910157_3_alg».proof.Proof.Gen.ReferenceIdeal
import proofs.«423351_j27590869910157_3_alg».proof.Proof.Gen.ReferenceIdeal.Run
import proofs.«423351_j27590869910157_3_alg».proof.Proof.Gen.ReferenceIdeal.Read
import proofs.«423351_j27590869910157_3_alg».proof.Proof.Gen.Pre_finite_inputs
import proofs.«423351_j27590869910157_3_alg».proof.Proof.EdgeRange
import proofs.«423351_j27590869910157_3_alg».proof.Proof.KernelRun
import proofs.«423351_j27590869910157_3_alg».proof.Proof.KernelValue
import proofs.«423351_j27590869910157_3_alg».proof.Proof.RefValue
import Idealize.ShloMosaic.Adequacy
import Idealize.ShloMosaic.Init

noncomputable section

namespace Cert.Proof

open Idealize.ShloMosaic Idealize.ShloMosaic.TcCoe Idealize.ShloMosaic.ValueIdx Idealize.SL.Sem Cert.EdgeAttn

theorem frame_k : Cert.frame_Kernel := fun m ρ _ => Cert.Kernel.Gen.frame m ρ

theorem frame_ki : Cert.frame_KernelIdeal := fun m ρ _ => Cert.KernelIdeal.Gen.frame m ρ

/-- The reference has no call: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the score of every edge, the endpoints read off the edge array's two columns. -/
theorem algebraic : Cert.algebraic_KernelIdeal_ReferenceIdeal := by
  intro m ρ m' ρ' hpre hagree
  have hpos : ∀ (c : Dev Cert.KernelIdeal.nD) i, 0 ≤ ((m ((c.tc : Thread Cert.KernelIdeal.nD Cert.KernelIdeal.τ).loc Cert.KernelIdeal.main_arg1)) i).toInt :=
    fun c i => Cert.EdgeRange.nonneg_of_pre _ _ _ _ _ _ _ _ _ _ (hpre c) i
  refine ⟨fun c => fun (i : Cert.KernelIdeal.S600000x1.Idx) =>
      edgeScore (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))
        (nodeOf ((m ((c.tc : Thread Cert.KernelIdeal.nD Cert.KernelIdeal.τ).loc Cert.KernelIdeal.main_arg1)) (ix2 (i 0) 0))) (nodeOf ((m ((c.tc : Thread Cert.KernelIdeal.nD Cert.KernelIdeal.τ).loc Cert.KernelIdeal.main_arg1)) (ix2 (i 0) 1))), ?_, ?_⟩
  · exact (θ_run Cert.KernelIdeal.defs _ _).mono
      (fun r h c => ⟨(h c).1.trans (Cert.KernelIdeal.KernelValue.result_eq m ρ c), (h c).2⟩)
      (Cert.KernelIdeal.Gen.run_result m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v37_eq _ _ _ _ _ _ _ _ _ _).trans ?_
    obtain ⟨h0, h1, h2, h3, h4, h5, h6, h7, h8, h9⟩ := hagree c
    rw [h0, h1, h2, h3, h4, h5, h6, h7, h8, h9]
    funext i
    obtain ⟨e, q, rfl⟩ : ∃ (e : Fin 600000) (q : Fin 1), i = ix2 e q := ⟨i 0, i 1, eq_ix2 i⟩
    exact Cert.ReferenceIdeal.RefValue.result_apply _ _ _ _ _ _ _ _ _ _ (hpos c) e q

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
